-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S512x256 : Shape := ⟨2, ![512, 256]⟩
abbrev S512 : Shape := ⟨1, ![512]⟩
abbrev S512x1 : Shape := ⟨2, ![512, 1]⟩
abbrev S4096x1 : Shape := ⟨2, ![4096, 1]⟩
abbrev S256x512 : Shape := ⟨2, ![256, 512]⟩
abbrev S512x512 : Shape := ⟨2, ![512, 512]⟩
abbrev S4096 : Shape := ⟨1, ![4096]⟩
abbrev S_ : Shape := ⟨0, ![]⟩

abbrev nBuf : Space → Nat
  | .hbm => 28
  | .vmem => 22
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x1, .f32⟩
  | .hbm, ⟨5, _⟩ => ⟨S4096, .f32⟩
  | .hbm, ⟨6, _⟩ => ⟨S4096x1, .f32⟩
  | .hbm, ⟨7, _⟩ => ⟨S4096, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x256_S512x256 : S512x256.ShapeCasts S512x256
  bitsLt_bf16_f32 : FTy.bits .bf16 < FTy.bits .f32
  transposes_S512x256_p1_0_S256x512 : S512x256.Transposes [1, 0] S256x512
  reduces_S512x512_S512 : S512x512.Reduces [1] S512
  shapeCasts_S4096x1_S4096 : S4096x1.ShapeCasts S4096
  reducesTo_S4096x256_S4096_d1 : S4096x256.ReducesTo [1] S4096
  h_S_ : 0 < S_.numel
  bcast_S_S4096 : S_.BroadcastsInDim S4096 (![] : Fin 0 → Fin S4096.rank)
  reducesTo_S4096_S_d0 : S4096.ReducesTo [0] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0_1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩
abbrev S8192x1 : Shape := ⟨2, ![8192, 1]⟩
abbrev S1x8192 : Shape := ⟨2, ![1, 8192]⟩

abbrev nBuf : Space → Nat
  | .hbm => 101
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .i32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S8192, .f32⟩
  | .hbm, ⟨81, _⟩ => ⟨S8192x1, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .i1⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_4 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_5 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_6 : Ref sig .tc := ⟨.hbm, 97, rfl⟩
abbrev main_v43 : Ref sig .tc := ⟨.hbm, 98, rfl⟩
abbrev main_cst_7 : Ref sig .tc := ⟨.hbm, 99, rfl⟩
abbrev main_v44 : Ref sig .tc := ⟨.hbm, 100, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KReg0.lean ====
/-
  Region 0 of the kernel's program: the row normalization, one grid axis of 8 points, each point reading a block of
  512 rows of each input and writing the block of normalized rows of each output.  Stated at a parameter `V`, the
  contents of the core's buffers when the region is entered, and for any float instance.
  What each output block holds after the body (`out0_2`, `out0_3`) is the body's one store of the normalized block;
  the proof data `dat0` says so at every point, and `body_obligation0` is the body's run at a generic point.
-/
import proofs.«159817_j84318797955094_1_alg».proof.Proof.Gen.Kernel.Launch
import proofs.«159817_j84318797955094_1_alg».proof.Proof.Gen.Kernel.Skeleton
import proofs.«159817_j84318797955094_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block as a rectangle: every load and store of the body goes through it. -/
abbrev r0 : Rect S512x256 := Rect.unit (s := S512x256) ![0, 0] S512x256.size inb_S512x256_S512x256_0_0

/-- Output window 2's buffer after the body: the normalized block of the first input's block. -/
def out0_2 (x0 : Vec F S512x256 .f32) : Vec F S512x256 .f32 :=
  View.canon [⟨r0, k0_pay1 (View.ld x0 r0)⟩]
/-- Output window 3's buffer after the body: the normalized block of the second input's block. -/
def out0_3 (x1 : Vec F S512x256 .f32) : Vec F S512x256 .f32 :=
  View.canon [⟨r0, k0_pay2 (View.ld x1 r0)⟩]

theorem cover0 (p0 : Vec F S512x256 .f32) (y : S512x256.Idx) :
    ∃ pc ∈ ([⟨r0, p0⟩] : List (View.Piece (Elt F) S512x256 .f32)), y ∈ pc.1.set :=
  View.cover_of_tiled [⟨r0, p0⟩] S512x256.size (by rfl) y

set_option maxHeartbeats 1000000 in
/-- The body on whole staging memrefs: the inputs' kept, each output's left at the normalized block. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole)
    (arg3 : Memref sig .tc .vmem S512x256 .f32) (harg3 : arg3.IsWhole) (arg4 : Memref sig .tc .vmem S512x256 .f32) (harg4 : arg4.IsWhole)
    (x0 x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1.lean ====
/-
  Region 1 of the kernel's program: for each block of 512 rows of the first operand (grid axis 0) the eight blocks of
  512 rows of the second operand are visited in turn (grid axis 1); at each point the 512 × 512 tile of inner
  products is formed, doubled, exponentiated and summed along its rows, and the row sums are added into a 512 × 1
  scratch that is reset at the first of the eight points and copied to the output block at the last.
  Stated at a parameter `V`, the contents of the core's buffers when the region is entered, and for any float instance.
  `sAt1` is what the scratch holds after each point; the invariant between points carries the scratch at exactly that.
-/
import proofs.«159817_j84318797955094_1_alg».proof.Proof.Gen.Kernel.Launch
import proofs.«159817_j84318797955094_1_alg».proof.Proof.Gen.Kernel.Skeleton
import proofs.«159817_j84318797955094_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch holds after the body at position `n`: at the first of each run of eight points the tile's row sums
    added to the zero column, afterwards added to what the point before left. -/
def sAt1 (c : Dev nD) : (n : ℕ) → n < cfg1.N → Vec F S512x1 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (sAt1 c n (Nat.lt_of_succ_lt hn))

theorem sAt1_reset (c : Dev nD) (t : Fin cfg1.N) (h : t.val % 8 = 0) :
    sAt1 V c t.val t.isLt = k1_pay2 (iblk1 V c 0 t) (iblk1 V c 1 t) (k1_pay1 (F := F)) := by
  obtain ⟨n, hn⟩ := t
  cases n with
  | zero => rfl
  | succ n => exact if_pos h

theorem sAt1_step (c : Dev nD) (t : Fin cfg1.N) (h : ¬ t.val % 8 = 0) :
    sAt1 V c t.val t.isLt = k1_pay2 (iblk1 V c 0 t) (iblk1 V c 1 t) (sAt1 V c (t.val - 1) (Nat.lt_of_le_of_lt (Nat.sub_le _ _) t.isLt)) := by
  obtain ⟨n, hn⟩ := t
  cases n with
  | zero => exact absurd (Nat.zero_mod _) h
  | succ n => exact if_neg h

/-- The scratch operand as a whole memref. -/
abbrev scM1 : Memref sig .tc .vmem S512x1 .f32 := Memref.whole cc1_scratch0

/-- The core's scoped buffers that are neither a staging buffer of this call nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The invariant before position `n`: before the first point every scoped buffer no window stages at anything and the
    generator register at some state; afterwards the scratch at what the point before left, the others at anything. -/
def PhiS1 (c : Dev nD) : (n : ℕ) → n ≤ cfg1.N → sProp 𝕄
  | 0, _ => Pipeline.ΦA spec1 c
  | n + 1, hn => iprop(owns (c : Thread nD τ) scM1 fullShare (sAt1 V c n hn) ∗ rest1 c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sAt1 V c t.val t.isLt := by dsimp only [dat1]

namespace Reg1Aux

/-! ### The two conditionals of the body, over the grid -/

/-- The first conditional's condition (the second grid coordinate is zero), from the coordinates. -/
abbrev condA (i : grid1.Coords) : Prop :=
  (Scalar.cmpi .ne (Scalar.extui (Scalar.cmpi .eq (BitVec.ofNat 32 (i 1).val) 0#32)) 0#32) = 1#1
/-- It holds exactly at the first of each run of eight points. -/
theorem hcondA : ∀ t : Fin cfg1.N, condA (grid1.coords t) ↔ t.val % 8 = 0 :=
  (by decide +kernel : ∀ t : Fin grid1.N, condA (grid1.coords t) ↔ t.val % 8 = 0)

/-- The second conditional's condition (the second grid coordinate is seven). -/
abbrev condB (i : grid1.Coords) : Prop := k1_cond2 i = 1#1
/-- It holds exactly at the last of each run of eight points. -/
theorem hcondB : ∀ t : Fin cfg1.N, condB (grid1.coords t) ↔ t.val % 8 = 7 :=
  (by decide +kernel : ∀ t : Fin grid1.N, condB (grid1.coords t) ↔ t.val % 8 = 7)

/-- The input windows are never idle. -/
theorem liveAtX : ∀ t : Fin cfg1.N, cfg1.idle 0 (grid1.coords t) = false := by decide +kernel
theorem liveAtY : ∀ t : Fin cfg1.N, cfg1.idle 1 (grid1.coords t) = false := by decide +kernel
/-- The output window is idle, and not written back, off the last of each run of eight points; live at it. -/
theorem idleAtO : ∀ t : Fin cfg1.N, ¬condB (grid1.coords t) → cfg1.idle 2 (grid1.coords t) = true := by decide +kernel
theorem noFlushO : ∀ t : Fin cfg1.N, ¬condB (grid1.coords t) → (cfg1.win 2).flush t = false := by decide +kernel
theorem liveAtO : ∀ t : Fin cfg1.N, condB (grid1.coords t) → cfg1.idle 2 (grid1.coords t) = false := by decide +kernel

/-! ### The invariant opened -/

/-- What the region is entered with gives the scratch whole at some contents, the other scoped buffers and the
    generator register (the conjuncts are matched one by one, whatever their order), -/
theorem PhiAopen (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨Ha, Hb, Hc, Hd, He, Hf, Hg, Hh, Hi, Hj, Hk, Hl, Hm, Hn, Ho, Hp⟩, Hq⟩
  iframe

/-- and is given back by them. -/
theorem PhiAclose (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA rest1; rw [scopedRest1_eq]; simp only [scM1, owns_whole]
  iintro ⟨Ha, ⟨Hb, Hc, Hd, He, Hf, Hg, Hh, Hi, Hj, Hk, Hl, Hm, Hn, Ho, Hp⟩, Hq⟩
  iframe

theorem PhiS1_zero (c : Dev nD) (n : ℕ) (h : n ≤ cfg1.N) (hz : n = 0) : PhiS1 V c n h = Pipeline.ΦA spec1 c := by
  subst hz; rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (sAt1 V c (n - 1) (by omega)) ∗ rest1 c ∗ (∃ r, prngReg c r)) := by
  cases n with
  | zero => exact absurd rfl hz
  | succ n => rfl

/-- Before any point the invariant gives the scratch at SOME contents. -/
theorem PhiS1_forget (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiAopen c
  | succ n =>
    rw [PhiS1_pos V c _ _ (Nat.succ_ne_zero n)]
    iintro ⟨HS, Hr, Hg⟩
    isplitl [HS]
    · iexists _; iexact HS
    isplitl [Hr]
    · iexact Hr
    iexact Hg

/-! ### Loads and stores through the whole buffer -/

/-- The offsets of every load and store of the body are zero. -/
theorem zerosS : (![0, 0] : Fin S512x1.rank → Nat) = fun _ => 0 := by funext a; fin_cases a <;> rfl
theorem zerosX : (![0, 0] : Fin S512x256.rank → Nat) = fun _ => 0 := by funext a; fin_cases a <;> rfl

/-- A load through the whole buffer reads its contents. -/
theorem readAtS {κ : Kind} {sp : Space} (v : View sig κ sp S512x1 .f32) (f : v.ty.Contents (Elt F)) :
    v.readAt (Elt F) (Rect.unit (s := S512x1) ![0, 0] S512x1.size inb_S512x1_S512x1_0_0).toLoadRect f = v.read (Elt F) f :=
  (View.readAt_eq_ld v f _).trans (View.ld_unit_zero zerosS _ _)
theorem readAtX {κ : Kind} {sp : Space} (v : View sig κ sp S512x256 .f32) (f : v.ty.Contents (Elt F)) :
    v.readAt (Elt F) (Rect.unit (s := S512x256) ![0, 0] S512x256.size inb_S512x256_S512x256_0_0).toLoadRect f = v.read (Elt F) f :=
  (View.readAt_eq_ld v f _).trans (View.ld_unit_zero zerosX _ _)

/-- One store of the whole buffer of the scratch's shape. -/
abbrev pcS (w : Vec F S512x1 .f32) : View.Piece (Elt F) S512x1 .f32 :=
  ⟨Rect.unit (s := S512x1) ![0, 0] S512x1.size inb_S512x1_S512x1_0_0, w⟩

/-- It covers the buffer. -/
theorem coverS (w : Vec F S512x1 .f32) (L : List (View.Piece (Elt F) S512x1 .f32)) (y : S512x1.Idx) :
    ∃ p ∈ (pcS w :: L), y ∈ p.1.set :=
  ⟨pcS w, List.Mem.head _, View.mem_set_unit_zero zerosS inb_S512x1_S512x1_0_0 y⟩

/-- After a store of the whole buffer it reads what was stored, whatever the earlier stores were; -/
theorem readWritesS {κ : Kind} {sp : Space} (v : View sig κ sp S512x1 .f32) (f : v.ty.Contents (Elt F))
    (w : Vec F S512x1 .f32) (L : List (View.Piece (Elt F) S512x1 .f32)) :
    v.read (Elt F) (v.writes (Elt F) f (pcS w :: L)) = w :=
  (View.read_writes_eq_canon v f (pcS w :: L) (coverS w L)).trans
    (View.canon_cons_unit_zero zerosS inb_S512x1_S512x1_0_0 w L)

/-- and so does a load of the whole buffer right after the store. -/
theorem readCovS {κ : Kind} {sp : Space} (v : View sig κ sp S512x1 .f32) (w : Vec F S512x1 .f32) :
    v.readCov [pcS w] (Rect.unit (s := S512x1) ![0, 0] S512x1.size inb_S512x1_S512x1_0_0).toLoadRect = w :=
  View.readCov_unit_zero v zerosS inb_S512x1_S512x1_0_0 w

/-! ### The body's run, one case of the two conditionals at a time -/

set_option maxHeartbeats 1000000 in
/-- At the first of eight points: the scratch, found at anything, is zeroed, then the tile's row sums are added into it;
    the output's buffer is not touched. -/
theorem runA (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : condA i) (hcB : ¬condB i)
    (xa xb : Vec F S512x256 .f32) (xo : Vec F S512x1 .f32) (K : PUnit → sProp 𝕄) :
    iprop(owns (c : Thread nD τ) arg2 fullShare xa ∗ owns (c : Thread nD τ) arg3 fullShare xb
        ∗ owns (c : Thread nD τ) arg4 fullShare xo ∗ (∃ d, owns (c : Thread nD τ) arg5 fullShare d)
        ∗ (iprop(owns (c : Thread nD τ) arg2 fullShare xa ∗ owns (c : Thread nD τ) arg3 fullShare xb
            ∗ owns (c : Thread nD τ) arg4 fullShare xo ∗ owns (c : Thread nD τ) arg5 fullShare (k1_pay2 xa xb (k1_pay1 (F := F)))) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%fo, %hfo, HO⟩, ⟨%ds, %fs, -, HS⟩, Hk⟩
  subst hfa; subst hfb; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readCovS, readAtX, readAtX]

set_option maxHeartbeats 1000000 in
/-- At a point neither first nor last of eight: the tile's row sums are added into the scratch; the output's buffer is
    not touched. -/
theorem runB (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : ¬condB i)
    (xa xb : Vec F S512x256 .f32) (xo xs : Vec F S512x1 .f32) (K : PUnit → sProp 𝕄) :
    iprop(owns (c : Thread nD τ) arg2 fullShare xa ∗ owns (c : Thread nD τ) arg3 fullShare xb
        ∗ owns (c : Thread nD τ) arg4 fullShare xo ∗ owns (c : Thread nD τ) arg5 fullShare xs
        ∗ (iprop(owns (c : Thread nD τ) arg2 fullShare xa ∗ owns (c : Thread nD τ) arg3 fullShare xb
            ∗ owns (c : Thread nD τ) arg4 fullShare xo ∗ owns (c : Thread nD τ) arg5 fullShare (k1_pay2 xa xb xs)) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%fo, %hfo, HO⟩, ⟨%fs, %hfs, HS⟩, Hk⟩
  subst hfa; subst hfb; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readAtS, readAtX, readAtX]

set_option maxHeartbeats 1000000 in
/-- At the last of eight points: the tile's row sums are added into the scratch, and the scratch is copied to the
    output's buffer, found at anything. -/
theorem runC (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : condB i)
    (xa xb : Vec F S512x256 .f32) (xs : Vec F S512x1 .f32) (K : PUnit → sProp 𝕄) :
    iprop(owns (c : Thread nD τ) arg2 fullShare xa ∗ owns (c : Thread nD τ) arg3 fullShare xb
        ∗ (∃ d, owns (c : Thread nD τ) arg4 fullShare d) ∗ owns (c : Thread nD τ) arg5 fullShare xs
        ∗ (iprop(owns (c : Thread nD τ) arg2 fullShare xa ∗ owns (c : Thread nD τ) arg3 fullShare xb
            ∗ owns (c : Thread nD τ) arg4 fullShare (k1_pay2 xa xb xs) ∗ owns (c : Thread nD τ) arg5 fullShare (k1_pay2 xa xb xs)) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%dO, %fo, -, HO⟩, ⟨%fs, %hfs, HS⟩, Hk⟩
  subst hfa; subst hfb; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists _; isplitr
    swap; · iexact HO
    ipureintro
    sl_unfold_run_names
    rw [readWritesS, readCovS, readAtS, readAtX, readAtX]
  iexists _; isplitr
  swap; · iexact HS
  ipureintro
  sl_unfold_run_names
  rw [readWritesS, readAtS, readAtX, readAtX]

/-! ### The body obligation at a generic point -/

/-- The invariant at a point's start and end, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem PhiS1_succ (c : Dev nD) (n : ℕ) (hn : n < cfg1.N) :
    PhiS1 V c (n + 1) hn = iprop(owns (c : Thread nD τ) scM1 fullShare (sAt1 V c n hn) ∗ rest1 c ∗ (∃ r, prngReg c r)) := rfl

/-- Each input window's current staging buffer holds its block at every point, fetched there or not. -/
theorem before_X (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before_Y (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point. The inputs' buffers hold their blocks; the point's position among its eight decides the two
    conditionals; the invariant hands the scratch over at what the point before left (at anything where the body zeroes
    it first) and takes it back at this point's contents; the output's buffer comes back untouched except at the last
    of the eight, where it holds the scratch's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_X, before_Y]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (st1_0 t) fullShare ((dat1 V c).after 0 t) from by
    unfold Dat.leavesExact; rw [liveAtX t], after1_0]
  rw [show (dat1 V c).leavesExact 1 t = owns (c : Thread nD τ) (st1_1 t) fullShare ((dat1 V c).after 1 t) from by
    unfold Dat.leavesExact; rw [liveAtY t], after1_1]
  by_cases hA : t.val % 8 = 0
  · have hB : ¬ t.val % 8 = 7 := by omega
    have hcA : condA (grid1.coords t) := (hcondA t).mpr hA
    have hcB : ¬condB (grid1.coords t) := fun h => hB ((hcondB t).mp h)
    rw [Dat.leavesExact_idle (dat1 V c) 2 t (idleAtO t hcB) (noFlushO t hcB), sAt1_reset V c t hA]
    refine (sep_mono_left (PhiS1_forget V c _ _)).trans ?_
    iintro ⟨⟨HS, Hr, Hg⟩, Ho, ⟨%da, Ha⟩, ⟨%db, Hb⟩, ⟨%dO, HO⟩⟩
    iapply (runA c Set.univ (grid1.coords t) _ _ _ _ _ _ _ _ hcA hcB (iblk1 V c 0 t) (iblk1 V c 1 t) _ _)
    isplitl [Ha]; · iexact Ha
    isplitl [Hb]; · iexact Hb
    isplitl [HO]; · iexact HO
    isplitl [HS]; · iexact HS
    iintro ⟨Ha, Hb, HO, HS⟩
    isplitl [HS Hr Hg]
    · isplitl [HS]; · iexact HS
      isplitl [Hr]; · iexact Hr
      iexact Hg
    isplitl [Ho]; · iexact Ho
    isplitl [Ha]; · iexact Ha
    isplitl [Hb]; · iexact Hb
    iexists _; iexact HO
  · have hcA : ¬condA (grid1.coords t) := fun h => hA ((hcondA t).mp h)
    have hz : t.val ≠ 0 := fun h => hA (by rw [h])
    rw [PhiS1_pos V c _ _ hz, sAt1_step V c t hA]
    by_cases hB : t.val % 8 = 7
    · have hcB : condB (grid1.coords t) := (hcondB t).mpr hB
      rw [show (dat1 V c).leavesExact 2 t = owns (c : Thread nD τ) (st1_2 t) fullShare ((dat1 V c).after 2 t) from by
        unfold Dat.leavesExact; rw [liveAtO t hcB], after1_2, sAt1_step V c t hA]
      iintro ⟨⟨HS, Hr, Hg⟩, Ho, ⟨%da, Ha⟩, ⟨%db, Hb⟩, ⟨%dO, HO⟩⟩
      iapply (runC c Set.univ (grid1.coords t) _ _ _ _ _ _ _ _ hcA hcB (iblk1 V c 0 t) (iblk1 V c 1 t) _ _)
      isplitl [Ha]; · iexact Ha
      isplitl [Hb]; · iexact Hb
      isplitl [HO]; · iexists _; iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexact HO
    · have hcB : ¬condB (grid1.coords t) := fun h => hB ((hcondB t).mp h)
      rw [Dat.leavesExact_idle (dat1 V c) 2 t (idleAtO t hcB) (noFlushO t hcB)]
      iintro ⟨⟨HS, Hr, Hg⟩, Ho, ⟨%da, Ha⟩, ⟨%db, Hb⟩, ⟨%dO, HO⟩⟩
      iapply (runB c Set.univ (grid1.coords t) _ _ _ _ _ _ _ _ hcA hcB (iblk1 V c 0 t) (iblk1 V c 1 t) _ _ _)
      isplitl [Ha]; · iexact Ha
      isplitl [Hb]; · iexact Hb
      isplitl [HO]; · iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexists _; iexact HO

end Reg1Aux

open Reg1Aux in
/-- The library's body obligation, at every point. -/
theorem body_obligation1 (c : Dev nD) : BodyObligation (dat1 (F := F) V c) (defs₀ (F := F)) Variants.none () Set.univ := fun t => by
  rw [bigSep_W1, bigSep_W1]
  exact sound_body V c t

open Reg1Aux in
/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

open Reg1Aux in
/-- After the last point the invariant gives the scoped rest and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_forget V c _ _).trans (PhiAclose c)

end Region1

end Cert.Kernel.Hand

end
-- ==== Proof.KReg2.lean ====
/-
  Region 2 of the kernel's program: for each block of 512 rows of the first operand (grid axis 0) the eight blocks of
  512 rows of the second operand are visited in turn (grid axis 1); at each point the 512 × 512 tile of inner
  products is formed, doubled, exponentiated and summed along its rows, and the row sums are added into a 512 × 1
  scratch that is reset at the first of the eight points and copied to the output block at the last.
  Stated at a parameter `V`, the contents of the core's buffers when the region is entered, and for any float instance.
  `sAt2` is what the scratch holds after each point; the invariant between points carries the scratch at exactly that.
-/
import proofs.«159817_j84318797955094_1_alg».proof.Proof.Gen.Kernel.Launch
import proofs.«159817_j84318797955094_1_alg».proof.Proof.Gen.Kernel.Skeleton
import proofs.«159817_j84318797955094_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the scratch holds after the body at position `n`: at the first of each run of eight points the tile's row sums
    added to the zero column, afterwards added to what the point before left. -/
def sAt2 (c : Dev nD) : (n : ℕ) → n < cfg2.N → Vec F S512x1 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (sAt2 c n (Nat.lt_of_succ_lt hn))

theorem sAt2_reset (c : Dev nD) (t : Fin cfg2.N) (h : t.val % 8 = 0) :
    sAt2 V c t.val t.isLt = k2_pay2 (iblk2 V c 0 t) (iblk2 V c 1 t) (k2_pay1 (F := F)) := by
  obtain ⟨n, hn⟩ := t
  cases n with
  | zero => rfl
  | succ n => exact if_pos h

theorem sAt2_step (c : Dev nD) (t : Fin cfg2.N) (h : ¬ t.val % 8 = 0) :
    sAt2 V c t.val t.isLt = k2_pay2 (iblk2 V c 0 t) (iblk2 V c 1 t) (sAt2 V c (t.val - 1) (Nat.lt_of_le_of_lt (Nat.sub_le _ _) t.isLt)) := by
  obtain ⟨n, hn⟩ := t
  cases n with
  | zero => exact absurd (Nat.zero_mod _) h
  | succ n => exact if_neg h

/-- The scratch operand as a whole memref. -/
abbrev scM2 : Memref sig .tc .vmem S512x1 .f32 := Memref.whole cc2_scratch0

/-- The core's scoped buffers that are neither a staging buffer of this call nor its scratch, each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant before position `n`: before the first point every scoped buffer no window stages at anything and the
    generator register at some state; afterwards the scratch at what the point before left, the others at anything. -/
def PhiS2 (c : Dev nD) : (n : ℕ) → n ≤ cfg2.N → sProp 𝕄
  | 0, _ => Pipeline.ΦA spec2 c
  | n + 1, hn => iprop(owns (c : Thread nD τ) scM2 fullShare (sAt2 V c n hn) ∗ rest2 c ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => sAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = sAt2 V c t.val t.isLt := by dsimp only [dat2]

namespace Reg2Aux

/-! ### The two conditionals of the body, over the grid -/

/-- The first conditional's condition (the second grid coordinate is zero), from the coordinates. -/
abbrev condA (i : grid2.Coords) : Prop :=
  (Scalar.cmpi .ne (Scalar.extui (Scalar.cmpi .eq (BitVec.ofNat 32 (i 1).val) 0#32)) 0#32) = 1#1
/-- It holds exactly at the first of each run of eight points. -/
theorem hcondA : ∀ t : Fin cfg2.N, condA (grid2.coords t) ↔ t.val % 8 = 0 :=
  (by decide +kernel : ∀ t : Fin grid2.N, condA (grid2.coords t) ↔ t.val % 8 = 0)

/-- The second conditional's condition (the second grid coordinate is seven). -/
abbrev condB (i : grid2.Coords) : Prop := k2_cond2 i = 1#1
/-- It holds exactly at the last of each run of eight points. -/
theorem hcondB : ∀ t : Fin cfg2.N, condB (grid2.coords t) ↔ t.val % 8 = 7 :=
  (by decide +kernel : ∀ t : Fin grid2.N, condB (grid2.coords t) ↔ t.val % 8 = 7)

/-- The input windows are never idle. -/
theorem liveAtX : ∀ t : Fin cfg2.N, cfg2.idle 0 (grid2.coords t) = false := by decide +kernel
theorem liveAtY : ∀ t : Fin cfg2.N, cfg2.idle 1 (grid2.coords t) = false := by decide +kernel
/-- The output window is idle, and not written back, off the last of each run of eight points; live at it. -/
theorem idleAtO : ∀ t : Fin cfg2.N, ¬condB (grid2.coords t) → cfg2.idle 2 (grid2.coords t) = true := by decide +kernel
theorem noFlushO : ∀ t : Fin cfg2.N, ¬condB (grid2.coords t) → (cfg2.win 2).flush t = false := by decide +kernel
theorem liveAtO : ∀ t : Fin cfg2.N, condB (grid2.coords t) → cfg2.idle 2 (grid2.coords t) = false := by decide +kernel

/-! ### The invariant opened -/

/-- What the region is entered with gives the scratch whole at some contents, the other scoped buffers and the
    generator register (the conjuncts are matched one by one, whatever their order), -/
theorem PhiAopen (c : Dev nD) :
    (Pipeline.ΦA spec2 c : sProp 𝕄)
      ⊢ iprop((∃ d, owns (c : Thread nD τ) scM2 fullShare d) ∗ rest2 (F := F) c ∗ (∃ r, prngReg c r)) := by
  unfold Pipeline.ΦA rest2; rw [scopedRest2_eq]; simp only [scM2, owns_whole]
  iintro ⟨⟨Ha, Hb, Hc, Hd, He, Hf, Hg, Hh, Hi, Hj, Hk, Hl, Hm, Hn, Ho, Hp⟩, Hq⟩
  iframe

/-- and is given back by them. -/
theorem PhiAclose (c : Dev nD) :
    iprop((∃ d, owns (c : Thread nD τ) scM2 fullShare d) ∗ rest2 (F := F) c ∗ (∃ r, prngReg c r))
      ⊢ (Pipeline.ΦA spec2 c : sProp 𝕄) := by
  unfold Pipeline.ΦA rest2; rw [scopedRest2_eq]; simp only [scM2, owns_whole]
  iintro ⟨Ha, ⟨Hb, Hc, Hd, He, Hf, Hg, Hh, Hi, Hj, Hk, Hl, Hm, Hn, Ho, Hp⟩, Hq⟩
  iframe

theorem PhiS1_zero (c : Dev nD) (n : ℕ) (h : n ≤ cfg2.N) (hz : n = 0) : PhiS2 V c n h = Pipeline.ΦA spec2 c := by
  subst hz; rfl

/-- Before a point that is not the first: the scratch at what the point before left. -/
theorem PhiS1_pos (c : Dev nD) (n : ℕ) (h : n ≤ cfg2.N) (hz : n ≠ 0) :
    PhiS2 V c n h = iprop(owns (c : Thread nD τ) scM2 fullShare (sAt2 V c (n - 1) (by omega)) ∗ rest2 c ∗ (∃ r, prngReg c r)) := by
  cases n with
  | zero => exact absurd rfl hz
  | succ n => rfl

/-- Before any point the invariant gives the scratch at SOME contents. -/
theorem PhiS1_forget (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiAopen c
  | succ n =>
    rw [PhiS1_pos V c _ _ (Nat.succ_ne_zero n)]
    iintro ⟨HS, Hr, Hg⟩
    isplitl [HS]
    · iexists _; iexact HS
    isplitl [Hr]
    · iexact Hr
    iexact Hg

/-! ### Loads and stores through the whole buffer -/

/-- The offsets of every load and store of the body are zero. -/
theorem zerosS : (![0, 0] : Fin S512x1.rank → Nat) = fun _ => 0 := by funext a; fin_cases a <;> rfl
theorem zerosX : (![0, 0] : Fin S512x256.rank → Nat) = fun _ => 0 := by funext a; fin_cases a <;> rfl

/-- A load through the whole buffer reads its contents. -/
theorem readAtS {κ : Kind} {sp : Space} (v : View sig κ sp S512x1 .f32) (f : v.ty.Contents (Elt F)) :
    v.readAt (Elt F) (Rect.unit (s := S512x1) ![0, 0] S512x1.size inb_S512x1_S512x1_0_0).toLoadRect f = v.read (Elt F) f :=
  (View.readAt_eq_ld v f _).trans (View.ld_unit_zero zerosS _ _)
theorem readAtX {κ : Kind} {sp : Space} (v : View sig κ sp S512x256 .f32) (f : v.ty.Contents (Elt F)) :
    v.readAt (Elt F) (Rect.unit (s := S512x256) ![0, 0] S512x256.size inb_S512x256_S512x256_0_0).toLoadRect f = v.read (Elt F) f :=
  (View.readAt_eq_ld v f _).trans (View.ld_unit_zero zerosX _ _)

/-- One store of the whole buffer of the scratch's shape. -/
abbrev pcS (w : Vec F S512x1 .f32) : View.Piece (Elt F) S512x1 .f32 :=
  ⟨Rect.unit (s := S512x1) ![0, 0] S512x1.size inb_S512x1_S512x1_0_0, w⟩

/-- It covers the buffer. -/
theorem coverS (w : Vec F S512x1 .f32) (L : List (View.Piece (Elt F) S512x1 .f32)) (y : S512x1.Idx) :
    ∃ p ∈ (pcS w :: L), y ∈ p.1.set :=
  ⟨pcS w, List.Mem.head _, View.mem_set_unit_zero zerosS inb_S512x1_S512x1_0_0 y⟩

/-- After a store of the whole buffer it reads what was stored, whatever the earlier stores were; -/
theorem readWritesS {κ : Kind} {sp : Space} (v : View sig κ sp S512x1 .f32) (f : v.ty.Contents (Elt F))
    (w : Vec F S512x1 .f32) (L : List (View.Piece (Elt F) S512x1 .f32)) :
    v.read (Elt F) (v.writes (Elt F) f (pcS w :: L)) = w :=
  (View.read_writes_eq_canon v f (pcS w :: L) (coverS w L)).trans
    (View.canon_cons_unit_zero zerosS inb_S512x1_S512x1_0_0 w L)

/-- and so does a load of the whole buffer right after the store. -/
theorem readCovS {κ : Kind} {sp : Space} (v : View sig κ sp S512x1 .f32) (w : Vec F S512x1 .f32) :
    v.readCov [pcS w] (Rect.unit (s := S512x1) ![0, 0] S512x1.size inb_S512x1_S512x1_0_0).toLoadRect = w :=
  View.readCov_unit_zero v zerosS inb_S512x1_S512x1_0_0 w

/-! ### The body's run, one case of the two conditionals at a time -/

set_option maxHeartbeats 1000000 in
/-- At the first of eight points: the scratch, found at anything, is zeroed, then the tile's row sums are added into it;
    the output's buffer is not touched. -/
theorem runA (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : condA i) (hcB : ¬condB i)
    (xa xb : Vec F S512x256 .f32) (xo : Vec F S512x1 .f32) (K : PUnit → sProp 𝕄) :
    iprop(owns (c : Thread nD τ) arg2 fullShare xa ∗ owns (c : Thread nD τ) arg3 fullShare xb
        ∗ owns (c : Thread nD τ) arg4 fullShare xo ∗ (∃ d, owns (c : Thread nD τ) arg5 fullShare d)
        ∗ (iprop(owns (c : Thread nD τ) arg2 fullShare xa ∗ owns (c : Thread nD τ) arg3 fullShare xb
            ∗ owns (c : Thread nD τ) arg4 fullShare xo ∗ owns (c : Thread nD τ) arg5 fullShare (k2_pay2 xa xb (k2_pay1 (F := F)))) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%fo, %hfo, HO⟩, ⟨%ds, %fs, -, HS⟩, Hk⟩
  subst hfa; subst hfb; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readCovS, readAtX, readAtX]

set_option maxHeartbeats 1000000 in
/-- At a point neither first nor last of eight: the tile's row sums are added into the scratch; the output's buffer is
    not touched. -/
theorem runB (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : ¬condB i)
    (xa xb : Vec F S512x256 .f32) (xo xs : Vec F S512x1 .f32) (K : PUnit → sProp 𝕄) :
    iprop(owns (c : Thread nD τ) arg2 fullShare xa ∗ owns (c : Thread nD τ) arg3 fullShare xb
        ∗ owns (c : Thread nD τ) arg4 fullShare xo ∗ owns (c : Thread nD τ) arg5 fullShare xs
        ∗ (iprop(owns (c : Thread nD τ) arg2 fullShare xa ∗ owns (c : Thread nD τ) arg3 fullShare xb
            ∗ owns (c : Thread nD τ) arg4 fullShare xo ∗ owns (c : Thread nD τ) arg5 fullShare (k2_pay2 xa xb xs)) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%fo, %hfo, HO⟩, ⟨%fs, %hfs, HS⟩, Hk⟩
  subst hfa; subst hfb; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readAtS, readAtX, readAtX]

set_option maxHeartbeats 1000000 in
/-- At the last of eight points: the tile's row sums are added into the scratch, and the scratch is copied to the
    output's buffer, found at anything. -/
theorem runC (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : condB i)
    (xa xb : Vec F S512x256 .f32) (xs : Vec F S512x1 .f32) (K : PUnit → sProp 𝕄) :
    iprop(owns (c : Thread nD τ) arg2 fullShare xa ∗ owns (c : Thread nD τ) arg3 fullShare xb
        ∗ (∃ d, owns (c : Thread nD τ) arg4 fullShare d) ∗ owns (c : Thread nD τ) arg5 fullShare xs
        ∗ (iprop(owns (c : Thread nD τ) arg2 fullShare xa ∗ owns (c : Thread nD τ) arg3 fullShare xb
            ∗ owns (c : Thread nD τ) arg4 fullShare (k2_pay2 xa xb xs) ∗ owns (c : Thread nD τ) arg5 fullShare (k2_pay2 xa xb xs)) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%dO, %fo, -, HO⟩, ⟨%fs, %hfs, HS⟩, Hk⟩
  subst hfa; subst hfb; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists _; isplitr
    swap; · iexact HO
    ipureintro
    sl_unfold_run_names
    rw [readWritesS, readCovS, readAtS, readAtX, readAtX]
  iexists _; isplitr
  swap; · iexact HS
  ipureintro
  sl_unfold_run_names
  rw [readWritesS, readAtS, readAtX, readAtX]

/-! ### The body obligation at a generic point -/

/-- The invariant at a point's start and end, restated at the point's position. -/
theorem PhiS1_castSucc (c : Dev nD) (t : Fin cfg2.N) :
    (dat2 V c).Φ t.castSucc = PhiS2 V c t.val (Nat.le_of_lt t.isLt) := by
  dsimp only [dat2]; simp only [Fin.coe_castSucc]

theorem PhiS1_succ (c : Dev nD) (n : ℕ) (hn : n < cfg2.N) :
    PhiS2 V c (n + 1) hn = iprop(owns (c : Thread nD τ) scM2 fullShare (sAt2 V c n hn) ∗ rest2 c ∗ (∃ r, prngReg c r)) := rfl

/-- Each input window's current staging buffer holds its block at every point, fetched there or not. -/
theorem before_X (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before_Y (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1000000 in
/-- The body at any point. The inputs' buffers hold their blocks; the point's position among its eight decides the two
    conditionals; the invariant hands the scratch over at what the point before left (at anything where the body zeroes
    it first) and takes it back at this point's contents; the output's buffer comes back untouched except at the last
    of the eight, where it holds the scratch's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_X, before_Y]
  rw [show (dat2 V c).owesAt () t.succ = (dat2 V c).owesAt () t.castSucc from rfl]
  rw [show (dat2 V c).Φ t.succ = PhiS2 V c (t.val + 1) t.isLt from rfl, PhiS1_succ, PhiS1_castSucc V c t]
  rw [show (dat2 V c).leavesExact 0 t = owns (c : Thread nD τ) (st2_0 t) fullShare ((dat2 V c).after 0 t) from by
    unfold Dat.leavesExact; rw [liveAtX t], after2_0]
  rw [show (dat2 V c).leavesExact 1 t = owns (c : Thread nD τ) (st2_1 t) fullShare ((dat2 V c).after 1 t) from by
    unfold Dat.leavesExact; rw [liveAtY t], after2_1]
  by_cases hA : t.val % 8 = 0
  · have hB : ¬ t.val % 8 = 7 := by omega
    have hcA : condA (grid2.coords t) := (hcondA t).mpr hA
    have hcB : ¬condB (grid2.coords t) := fun h => hB ((hcondB t).mp h)
    rw [Dat.leavesExact_idle (dat2 V c) 2 t (idleAtO t hcB) (noFlushO t hcB), sAt2_reset V c t hA]
    refine (sep_mono_left (PhiS1_forget V c _ _)).trans ?_
    iintro ⟨⟨HS, Hr, Hg⟩, Ho, ⟨%da, Ha⟩, ⟨%db, Hb⟩, ⟨%dO, HO⟩⟩
    iapply (runA c Set.univ (grid2.coords t) _ _ _ _ _ _ _ _ hcA hcB (iblk2 V c 0 t) (iblk2 V c 1 t) _ _)
    isplitl [Ha]; · iexact Ha
    isplitl [Hb]; · iexact Hb
    isplitl [HO]; · iexact HO
    isplitl [HS]; · iexact HS
    iintro ⟨Ha, Hb, HO, HS⟩
    isplitl [HS Hr Hg]
    · isplitl [HS]; · iexact HS
      isplitl [Hr]; · iexact Hr
      iexact Hg
    isplitl [Ho]; · iexact Ho
    isplitl [Ha]; · iexact Ha
    isplitl [Hb]; · iexact Hb
    iexists _; iexact HO
  · have hcA : ¬condA (grid2.coords t) := fun h => hA ((hcondA t).mp h)
    have hz : t.val ≠ 0 := fun h => hA (by rw [h])
    rw [PhiS1_pos V c _ _ hz, sAt2_step V c t hA]
    by_cases hB : t.val % 8 = 7
    · have hcB : condB (grid2.coords t) := (hcondB t).mpr hB
      rw [show (dat2 V c).leavesExact 2 t = owns (c : Thread nD τ) (st2_2 t) fullShare ((dat2 V c).after 2 t) from by
        unfold Dat.leavesExact; rw [liveAtO t hcB], after2_2, sAt2_step V c t hA]
      iintro ⟨⟨HS, Hr, Hg⟩, Ho, ⟨%da, Ha⟩, ⟨%db, Hb⟩, ⟨%dO, HO⟩⟩
      iapply (runC c Set.univ (grid2.coords t) _ _ _ _ _ _ _ _ hcA hcB (iblk2 V c 0 t) (iblk2 V c 1 t) _ _)
      isplitl [Ha]; · iexact Ha
      isplitl [Hb]; · iexact Hb
      isplitl [HO]; · iexists _; iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexact HO
    · have hcB : ¬condB (grid2.coords t) := fun h => hB ((hcondB t).mp h)
      rw [Dat.leavesExact_idle (dat2 V c) 2 t (idleAtO t hcB) (noFlushO t hcB)]
      iintro ⟨⟨HS, Hr, Hg⟩, Ho, ⟨%da, Ha⟩, ⟨%db, Hb⟩, ⟨%dO, HO⟩⟩
      iapply (runB c Set.univ (grid2.coords t) _ _ _ _ _ _ _ _ hcA hcB (iblk2 V c 0 t) (iblk2 V c 1 t) _ _ _)
      isplitl [Ha]; · iexact Ha
      isplitl [Hb]; · iexact Hb
      isplitl [HO]; · iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexists _; iexact HO

end Reg2Aux

open Reg2Aux in
/-- The library's body obligation, at every point. -/
theorem body_obligation2 (c : Dev nD) : BodyObligation (dat2 (F := F) V c) (defs₀ (F := F)) Variants.none () Set.univ := fun t => by
  rw [bigSep_W2, bigSep_W2]
  exact sound_body V c t

open Reg2Aux in
/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS1_zero V c 0 _ rfl]

open Reg2Aux in
/-- After the last point the invariant gives the scoped rest and the generator register back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS1_forget V c _ _).trans (PhiAclose c)

end Region2

end Cert.Kernel.Hand

end
-- ==== Proof.KRun.lean ====
/-
  The run of the kernel's program: @main is region 0, region 1, one host operation, region 2, twenty-one host
  operations.  `WJ` are the contents of the core's unscoped buffers at each boundary, a fold from the launch memory
  (a host stretch applies its operations; a region leaves its arrays at what its write-backs make of them and every
  other buffer alone).  Each region is a segment over the thread state "every unscoped buffer at the boundary's
  contents, the generator register at some state, nothing owed", each host stretch a segment of its operations, and
  the launch theorem for a list of segments gives: every weakly fair execution terminates, and every unscoped buffer
  ends holding `W5`.  The frame (the two arguments end as launched) is read off `W5`.
-/
import proofs.«159817_j84318797955094_1_alg».proof.Proof.Gen.Kernel.Launch
import proofs.«159817_j84318797955094_1_alg».proof.Proof.Gen.Kernel.Skeleton
import proofs.«159817_j84318797955094_1_alg».proof.Proof.Gen.Kernel.Points
import proofs.«159817_j84318797955094_1_alg».proof.Proof.KReg0
import proofs.«159817_j84318797955094_1_alg».proof.Proof.KReg1
import proofs.«159817_j84318797955094_1_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b

/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the one host operation between regions 1 and 2 (region 2's entry). -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the host operations that follow region 2: the end. -/
abbrev W5 : Dev nD → Valuation τ sig (Elt F) := fun c => StableHlo.after hostOps3 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
  | ⟨2, _⟩ => fun c => dat2 (V3 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (W5 m c) ∗ ∃ r, prngReg c r)

/-- The generator register and a region's scoped rest make the class invariant, and back (whatever rides between). -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c) ⊢ (Pipeline.ΦA win c : sProp 𝕄) := by
  unfold Pipeline.ΦA
  iintro ⟨Hp, -, Hr⟩
  isplitl [Hr]; · iexact Hr
  iexact Hp
theorem phiA_out {gr W : Nat} (win : Fin W → Pipeline.WinSpec sig gr) (c : Dev nD) :
    (Pipeline.ΦA win c : sProp 𝕄) ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr
/-- The last host stretch's post is the last thread state beside the core owing nothing. -/
theorem lastT (c : Dev nD) :
    iprop(StableHlo.held (c : Thread nD τ) (Pipeline.ucRefs τ sig) (W5 m c) ∗ RH (F := F) c)
      ⊢ iprop(TH m c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at `W0`, left at `W1`. Its arrays are
    split out of the unscoped buffers and put back at the exit contents; the generator register goes into the
    region's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the
    region's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ LH lvH 1 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_in spec1 c _).trans (hin1 (V1 m) c)
  hout c := by
    rw [Pipeline.ownSems0_none]
    exact (hout1 (V1 m) c).trans (phiA_out spec1 c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at the exit contents; the generator register goes into the
    region's invariant and comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ LH lvH 2 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_in spec2 c _).trans (hin2 (V3 m) c)
  hout c := by
    rw [Pipeline.ownSems0_none]
    exact (hout2 (V3 m) c).trans (phiA_out spec2 c)
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .region (reg0 m),
    .region (reg1 m),
    .host (hseg hostOps2 hostOps2_sub hostOps2_freshH (W2 m)),
    .region (reg2 m),
    .host (hseg hostOps3 hostOps3_sub hostOps3_freshH (W4 m)) ]
theorem main_run (c : Dev nD) : main (F := F) c = Pipeline.Seg.run (segsH m) := (main_chain c).trans (by chain_rfl)

set_option backward.isDefEq.respectTransparency.types false in
/-- THE RUN: every weakly fair execution of @main terminates, nothing faulting, and every unscoped buffer ends
    holding `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun c => lastT m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any float instance: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

end Cert.Kernel.Hand

end
-- ==== Proof.Reg0.lean ====
/-
  Region 0 of the kernel's program: the row normalization, one grid axis of 8 points, each point reading a block of
  512 rows of each input and writing the block of normalized rows of each output.  Stated at a parameter `V`, the
  contents of the core's buffers when the region is entered, and for any float instance.
  What each output block holds after the body (`out0_2`, `out0_3`) is the body's one store of the normalized block;
  the proof data `dat0` says so at every point, and `body_obligation0` is the body's run at a generic point.
-/
import proofs.«159817_j84318797955094_1_alg».proof.Proof.Gen.KernelIdeal.Launch
import proofs.«159817_j84318797955094_1_alg».proof.Proof.Gen.KernelIdeal.Skeleton
import proofs.«159817_j84318797955094_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block as a rectangle: every load and store of the body goes through it. -/
abbrev r0 : Rect S512x256 := Rect.unit (s := S512x256) ![0, 0] S512x256.size inb_S512x256_S512x256_0_0

/-- Output window 2's buffer after the body: the normalized block of the first input's block. -/
def out0_2 (x0 : Vec F S512x256 .f32) : Vec F S512x256 .f32 :=
  View.canon [⟨r0, k0_pay1 (View.ld x0 r0)⟩]
/-- Output window 3's buffer after the body: the normalized block of the second input's block. -/
def out0_3 (x1 : Vec F S512x256 .f32) : Vec F S512x256 .f32 :=
  View.canon [⟨r0, k0_pay2 (View.ld x1 r0)⟩]

theorem cover0 (p0 : Vec F S512x256 .f32) (y : S512x256.Idx) :
    ∃ pc ∈ ([⟨r0, p0⟩] : List (View.Piece (Elt F) S512x256 .f32)), y ∈ pc.1.set :=
  View.cover_of_tiled [⟨r0, p0⟩] S512x256.size (by rfl) y

set_option maxHeartbeats 1000000 in
/-- The body on whole staging memrefs: the inputs' kept, each output's left at the normalized block. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole)
    (arg3 : Memref sig .tc .vmem S512x256 .f32) (harg3 : arg3.IsWhole) (arg4 : Memref sig .tc .vmem S512x256 .f32) (harg4 : arg4.IsWhole)
    (x0 x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Reg1.lean ====
/-
  Region 1 of the kernel's program: for each block of 512 rows of the first operand (grid axis 0) the eight blocks of
  512 rows of the second operand are visited in turn (grid axis 1); at each point the 512 × 512 tile of inner
  products is formed, doubled, exponentiated and summed along its rows, and the row sums are added into a 512 × 1
  scratch that is reset at the first of the eight points and copied to the output block at the last.
  Stated at a parameter `V`, the contents of the core's buffers when the region is entered, and for any float instance.
  `sAt1` is what the scratch holds after each point; the invariant between points carries the scratch at exactly that.
-/
import proofs.«159817_j84318797955094_1_alg».proof.Proof.Gen.KernelIdeal.Launch
import proofs.«159817_j84318797955094_1_alg».proof.Proof.Gen.KernelIdeal.Skeleton
import proofs.«159817_j84318797955094_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch holds after the body at position `n`: at the first of each run of eight points the tile's row sums
    added to the zero column, afterwards added to what the point before left. -/
def sAt1 (c : Dev nD) : (n : ℕ) → n < cfg1.N → Vec F S512x1 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (sAt1 c n (Nat.lt_of_succ_lt hn))

theorem sAt1_reset (c : Dev nD) (t : Fin cfg1.N) (h : t.val % 8 = 0) :
    sAt1 V c t.val t.isLt = k1_pay2 (iblk1 V c 0 t) (iblk1 V c 1 t) (k1_pay1 (F := F)) := by
  obtain ⟨n, hn⟩ := t
  cases n with
  | zero => rfl
  | succ n => exact if_pos h

theorem sAt1_step (c : Dev nD) (t : Fin cfg1.N) (h : ¬ t.val % 8 = 0) :
    sAt1 V c t.val t.isLt = k1_pay2 (iblk1 V c 0 t) (iblk1 V c 1 t) (sAt1 V c (t.val - 1) (Nat.lt_of_le_of_lt (Nat.sub_le _ _) t.isLt)) := by
  obtain ⟨n, hn⟩ := t
  cases n with
  | zero => exact absurd (Nat.zero_mod _) h
  | succ n => exact if_neg h

/-- The scratch operand as a whole memref. -/
abbrev scM1 : Memref sig .tc .vmem S512x1 .f32 := Memref.whole cc1_scratch0

/-- The core's scoped buffers that are neither a staging buffer of this call nor its scratch, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The invariant before position `n`: before the first point every scoped buffer no window stages at anything and the
    generator register at some state; afterwards the scratch at what the point before left, the others at anything. -/
def PhiS1 (c : Dev nD) : (n : ℕ) → n ≤ cfg1.N → sProp 𝕄
  | 0, _ => Pipeline.ΦA spec1 c
  | n + 1, hn => iprop(owns (c : Thread nD τ) scM1 fullShare (sAt1 V c n hn) ∗ rest1 c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sAt1 V c t.val t.isLt := by dsimp only [dat1]

namespace Reg1Aux

/-! ### The two conditionals of the body, over the grid -/

/-- The first conditional's condition (the second grid coordinate is zero), from the coordinates. -/
abbrev condA (i : grid1.Coords) : Prop :=
  (Scalar.cmpi .ne (Scalar.extui (Scalar.cmpi .eq (BitVec.ofNat 32 (i 1).val) 0#32)) 0#32) = 1#1
/-- It holds exactly at the first of each run of eight points. -/
theorem hcondA : ∀ t : Fin cfg1.N, condA (grid1.coords t) ↔ t.val % 8 = 0 :=
  (by decide +kernel : ∀ t : Fin grid1.N, condA (grid1.coords t) ↔ t.val % 8 = 0)

/-- The second conditional's condition (the second grid coordinate is seven). -/
abbrev condB (i : grid1.Coords) : Prop := k1_cond2 i = 1#1
/-- It holds exactly at the last of each run of eight points. -/
theorem hcondB : ∀ t : Fin cfg1.N, condB (grid1.coords t) ↔ t.val % 8 = 7 :=
  (by decide +kernel : ∀ t : Fin grid1.N, condB (grid1.coords t) ↔ t.val % 8 = 7)

/-- The input windows are never idle. -/
theorem liveAtX : ∀ t : Fin cfg1.N, cfg1.idle 0 (grid1.coords t) = false := by decide +kernel
theorem liveAtY : ∀ t : Fin cfg1.N, cfg1.idle 1 (grid1.coords t) = false := by decide +kernel
/-- The output window is idle, and not written back, off the last of each run of eight points; live at it. -/
theorem idleAtO : ∀ t : Fin cfg1.N, ¬condB (grid1.coords t) → cfg1.idle 2 (grid1.coords t) = true := by decide +kernel
theorem noFlushO : ∀ t : Fin cfg1.N, ¬condB (grid1.coords t) → (cfg1.win 2).flush t = false := by decide +kernel
theorem liveAtO : ∀ t : Fin cfg1.N, condB (grid1.coords t) → cfg1.idle 2 (grid1.coords t) = false := by decide +kernel

/-! ### The invariant opened -/

/-- What the region is entered with gives the scratch whole at some contents, the other scoped buffers and the
    generator register (the conjuncts are matched one by one, whatever their order), -/
theorem PhiAopen (c : Dev nD) :
    (Pipeline.ΦA spec1 c : sProp 𝕄)
      ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨Ha, Hb, Hc, Hd, He, Hf, Hg, Hh, Hi, Hj, Hk, Hl, Hm, Hn, Ho, Hp⟩, Hq⟩
  iframe

/-- and is given back by them. -/
theorem PhiAclose (c : Dev nD) :
    iprop((∃ d, owns (c : Thread nD τ) scM1 fullShare d) ∗ rest1 (F := F) c ∗ (∃ r, prngReg c r))
      ⊢ (Pipeline.ΦA spec1 c : sProp 𝕄) := by
  unfold Pipeline.ΦA rest1; rw [scopedRest1_eq]; simp only [scM1, owns_whole]
  iintro ⟨Ha, ⟨Hb, Hc, Hd, He, Hf, Hg, Hh, Hi, Hj, Hk, Hl, Hm, Hn, Ho, Hp⟩, Hq⟩
  iframe

theorem PhiS1_zero (c : Dev nD) (n : ℕ) (h : n ≤ cfg1.N) (hz : n = 0) : PhiS1 V c n h = Pipeline.ΦA spec1 c := by
  subst hz; rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (sAt1 V c (n - 1) (by omega)) ∗ rest1 c ∗ (∃ r, prngReg c r)) := by
  cases n with
  | zero => exact absurd rfl hz
  | succ n => rfl

/-- Before any point the invariant gives the scratch at SOME contents. -/
theorem PhiS1_forget (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiAopen c
  | succ n =>
    rw [PhiS1_pos V c _ _ (Nat.succ_ne_zero n)]
    iintro ⟨HS, Hr, Hg⟩
    isplitl [HS]
    · iexists _; iexact HS
    isplitl [Hr]
    · iexact Hr
    iexact Hg

/-! ### Loads and stores through the whole buffer -/

/-- The offsets of every load and store of the body are zero. -/
theorem zerosS : (![0, 0] : Fin S512x1.rank → Nat) = fun _ => 0 := by funext a; fin_cases a <;> rfl
theorem zerosX : (![0, 0] : Fin S512x256.rank → Nat) = fun _ => 0 := by funext a; fin_cases a <;> rfl

/-- A load through the whole buffer reads its contents. -/
theorem readAtS {κ : Kind} {sp : Space} (v : View sig κ sp S512x1 .f32) (f : v.ty.Contents (Elt F)) :
    v.readAt (Elt F) (Rect.unit (s := S512x1) ![0, 0] S512x1.size inb_S512x1_S512x1_0_0).toLoadRect f = v.read (Elt F) f :=
  (View.readAt_eq_ld v f _).trans (View.ld_unit_zero zerosS _ _)
theorem readAtX {κ : Kind} {sp : Space} (v : View sig κ sp S512x256 .f32) (f : v.ty.Contents (Elt F)) :
    v.readAt (Elt F) (Rect.unit (s := S512x256) ![0, 0] S512x256.size inb_S512x256_S512x256_0_0).toLoadRect f = v.read (Elt F) f :=
  (View.readAt_eq_ld v f _).trans (View.ld_unit_zero zerosX _ _)

/-- One store of the whole buffer of the scratch's shape. -/
abbrev pcS (w : Vec F S512x1 .f32) : View.Piece (Elt F) S512x1 .f32 :=
  ⟨Rect.unit (s := S512x1) ![0, 0] S512x1.size inb_S512x1_S512x1_0_0, w⟩

/-- It covers the buffer. -/
theorem coverS (w : Vec F S512x1 .f32) (L : List (View.Piece (Elt F) S512x1 .f32)) (y : S512x1.Idx) :
    ∃ p ∈ (pcS w :: L), y ∈ p.1.set :=
  ⟨pcS w, List.Mem.head _, View.mem_set_unit_zero zerosS inb_S512x1_S512x1_0_0 y⟩

/-- After a store of the whole buffer it reads what was stored, whatever the earlier stores were; -/
theorem readWritesS {κ : Kind} {sp : Space} (v : View sig κ sp S512x1 .f32) (f : v.ty.Contents (Elt F))
    (w : Vec F S512x1 .f32) (L : List (View.Piece (Elt F) S512x1 .f32)) :
    v.read (Elt F) (v.writes (Elt F) f (pcS w :: L)) = w :=
  (View.read_writes_eq_canon v f (pcS w :: L) (coverS w L)).trans
    (View.canon_cons_unit_zero zerosS inb_S512x1_S512x1_0_0 w L)

/-- and so does a load of the whole buffer right after the store. -/
theorem readCovS {κ : Kind} {sp : Space} (v : View sig κ sp S512x1 .f32) (w : Vec F S512x1 .f32) :
    v.readCov [pcS w] (Rect.unit (s := S512x1) ![0, 0] S512x1.size inb_S512x1_S512x1_0_0).toLoadRect = w :=
  View.readCov_unit_zero v zerosS inb_S512x1_S512x1_0_0 w

/-! ### The body's run, one case of the two conditionals at a time -/

set_option maxHeartbeats 1000000 in
/-- At the first of eight points: the scratch, found at anything, is zeroed, then the tile's row sums are added into it;
    the output's buffer is not touched. -/
theorem runA (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : condA i) (hcB : ¬condB i)
    (xa xb : Vec F S512x256 .f32) (xo : Vec F S512x1 .f32) (K : PUnit → sProp 𝕄) :
    iprop(owns (c : Thread nD τ) arg2 fullShare xa ∗ owns (c : Thread nD τ) arg3 fullShare xb
        ∗ owns (c : Thread nD τ) arg4 fullShare xo ∗ (∃ d, owns (c : Thread nD τ) arg5 fullShare d)
        ∗ (iprop(owns (c : Thread nD τ) arg2 fullShare xa ∗ owns (c : Thread nD τ) arg3 fullShare xb
            ∗ owns (c : Thread nD τ) arg4 fullShare xo ∗ owns (c : Thread nD τ) arg5 fullShare (k1_pay2 xa xb (k1_pay1 (F := F)))) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%fo, %hfo, HO⟩, ⟨%ds, %fs, -, HS⟩, Hk⟩
  subst hfa; subst hfb; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readCovS, readAtX, readAtX]

set_option maxHeartbeats 1000000 in
/-- At a point neither first nor last of eight: the tile's row sums are added into the scratch; the output's buffer is
    not touched. -/
theorem runB (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : ¬condB i)
    (xa xb : Vec F S512x256 .f32) (xo xs : Vec F S512x1 .f32) (K : PUnit → sProp 𝕄) :
    iprop(owns (c : Thread nD τ) arg2 fullShare xa ∗ owns (c : Thread nD τ) arg3 fullShare xb
        ∗ owns (c : Thread nD τ) arg4 fullShare xo ∗ owns (c : Thread nD τ) arg5 fullShare xs
        ∗ (iprop(owns (c : Thread nD τ) arg2 fullShare xa ∗ owns (c : Thread nD τ) arg3 fullShare xb
            ∗ owns (c : Thread nD τ) arg4 fullShare xo ∗ owns (c : Thread nD τ) arg5 fullShare (k1_pay2 xa xb xs)) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%fo, %hfo, HO⟩, ⟨%fs, %hfs, HS⟩, Hk⟩
  subst hfa; subst hfb; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readAtS, readAtX, readAtX]

set_option maxHeartbeats 1000000 in
/-- At the last of eight points: the tile's row sums are added into the scratch, and the scratch is copied to the
    output's buffer, found at anything. -/
theorem runC (c : Dev nD) (E : Set ℕ) (i : grid1.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : condB i)
    (xa xb : Vec F S512x256 .f32) (xs : Vec F S512x1 .f32) (K : PUnit → sProp 𝕄) :
    iprop(owns (c : Thread nD τ) arg2 fullShare xa ∗ owns (c : Thread nD τ) arg3 fullShare xb
        ∗ (∃ d, owns (c : Thread nD τ) arg4 fullShare d) ∗ owns (c : Thread nD τ) arg5 fullShare xs
        ∗ (iprop(owns (c : Thread nD τ) arg2 fullShare xa ∗ owns (c : Thread nD τ) arg3 fullShare xb
            ∗ owns (c : Thread nD τ) arg4 fullShare (k1_pay2 xa xb xs) ∗ owns (c : Thread nD τ) arg5 fullShare (k1_pay2 xa xb xs)) -∗ K ⟨⟩))
      ⊢ wp frame (wpE (defs₀ (F := F)) Variants.none c none) E (cc1__sim_sum_kernel i arg2 harg2 arg3 harg3 arg4 harg4 arg5 harg5) K := by
  simp only [cc1__sim_sum_kernel_eq_skeleton]; unfold cc1__sim_sum_kernel_skel
  unfold owns
  iintro ⟨⟨%fa, %hfa, Ha⟩, ⟨%fb, %hfb, Hb⟩, ⟨%dO, %fo, -, HO⟩, ⟨%fs, %hfs, HS⟩, Hk⟩
  subst hfa; subst hfb; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists _; isplitr
    swap; · iexact HO
    ipureintro
    sl_unfold_run_names
    rw [readWritesS, readCovS, readAtS, readAtX, readAtX]
  iexists _; isplitr
  swap; · iexact HS
  ipureintro
  sl_unfold_run_names
  rw [readWritesS, readAtS, readAtX, readAtX]

/-! ### The body obligation at a generic point -/

/-- The invariant at a point's start and end, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem PhiS1_succ (c : Dev nD) (n : ℕ) (hn : n < cfg1.N) :
    PhiS1 V c (n + 1) hn = iprop(owns (c : Thread nD τ) scM1 fullShare (sAt1 V c n hn) ∗ rest1 c ∗ (∃ r, prngReg c r)) := rfl

/-- Each input window's current staging buffer holds its block at every point, fetched there or not. -/
theorem before_X (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before_Y (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point. The inputs' buffers hold their blocks; the point's position among its eight decides the two
    conditionals; the invariant hands the scratch over at what the point before left (at anything where the body zeroes
    it first) and takes it back at this point's contents; the output's buffer comes back untouched except at the last
    of the eight, where it holds the scratch's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_X, before_Y]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (st1_0 t) fullShare ((dat1 V c).after 0 t) from by
    unfold Dat.leavesExact; rw [liveAtX t], after1_0]
  rw [show (dat1 V c).leavesExact 1 t = owns (c : Thread nD τ) (st1_1 t) fullShare ((dat1 V c).after 1 t) from by
    unfold Dat.leavesExact; rw [liveAtY t], after1_1]
  by_cases hA : t.val % 8 = 0
  · have hB : ¬ t.val % 8 = 7 := by omega
    have hcA : condA (grid1.coords t) := (hcondA t).mpr hA
    have hcB : ¬condB (grid1.coords t) := fun h => hB ((hcondB t).mp h)
    rw [Dat.leavesExact_idle (dat1 V c) 2 t (idleAtO t hcB) (noFlushO t hcB), sAt1_reset V c t hA]
    refine (sep_mono_left (PhiS1_forget V c _ _)).trans ?_
    iintro ⟨⟨HS, Hr, Hg⟩, Ho, ⟨%da, Ha⟩, ⟨%db, Hb⟩, ⟨%dO, HO⟩⟩
    iapply (runA c Set.univ (grid1.coords t) _ _ _ _ _ _ _ _ hcA hcB (iblk1 V c 0 t) (iblk1 V c 1 t) _ _)
    isplitl [Ha]; · iexact Ha
    isplitl [Hb]; · iexact Hb
    isplitl [HO]; · iexact HO
    isplitl [HS]; · iexact HS
    iintro ⟨Ha, Hb, HO, HS⟩
    isplitl [HS Hr Hg]
    · isplitl [HS]; · iexact HS
      isplitl [Hr]; · iexact Hr
      iexact Hg
    isplitl [Ho]; · iexact Ho
    isplitl [Ha]; · iexact Ha
    isplitl [Hb]; · iexact Hb
    iexists _; iexact HO
  · have hcA : ¬condA (grid1.coords t) := fun h => hA ((hcondA t).mp h)
    have hz : t.val ≠ 0 := fun h => hA (by rw [h])
    rw [PhiS1_pos V c _ _ hz, sAt1_step V c t hA]
    by_cases hB : t.val % 8 = 7
    · have hcB : condB (grid1.coords t) := (hcondB t).mpr hB
      rw [show (dat1 V c).leavesExact 2 t = owns (c : Thread nD τ) (st1_2 t) fullShare ((dat1 V c).after 2 t) from by
        unfold Dat.leavesExact; rw [liveAtO t hcB], after1_2, sAt1_step V c t hA]
      iintro ⟨⟨HS, Hr, Hg⟩, Ho, ⟨%da, Ha⟩, ⟨%db, Hb⟩, ⟨%dO, HO⟩⟩
      iapply (runC c Set.univ (grid1.coords t) _ _ _ _ _ _ _ _ hcA hcB (iblk1 V c 0 t) (iblk1 V c 1 t) _ _)
      isplitl [Ha]; · iexact Ha
      isplitl [Hb]; · iexact Hb
      isplitl [HO]; · iexists _; iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexact HO
    · have hcB : ¬condB (grid1.coords t) := fun h => hB ((hcondB t).mp h)
      rw [Dat.leavesExact_idle (dat1 V c) 2 t (idleAtO t hcB) (noFlushO t hcB)]
      iintro ⟨⟨HS, Hr, Hg⟩, Ho, ⟨%da, Ha⟩, ⟨%db, Hb⟩, ⟨%dO, HO⟩⟩
      iapply (runB c Set.univ (grid1.coords t) _ _ _ _ _ _ _ _ hcA hcB (iblk1 V c 0 t) (iblk1 V c 1 t) _ _ _)
      isplitl [Ha]; · iexact Ha
      isplitl [Hb]; · iexact Hb
      isplitl [HO]; · iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexists _; iexact HO

end Reg1Aux

open Reg1Aux in
/-- The library's body obligation, at every point. -/
theorem body_obligation1 (c : Dev nD) : BodyObligation (dat1 (F := F) V c) (defs₀ (F := F)) Variants.none () Set.univ := fun t => by
  rw [bigSep_W1, bigSep_W1]
  exact sound_body V c t

open Reg1Aux in
/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

open Reg1Aux in
/-- After the last point the invariant gives the scoped rest and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_forget V c _ _).trans (PhiAclose c)

end Region1

end Cert.KernelIdeal.Hand

end
-- ==== Proof.Reg2.lean ====
/-
  Region 2 of the kernel's program: for each block of 512 rows of the first operand (grid axis 0) the eight blocks of
  512 rows of the second operand are visited in turn (grid axis 1); at each point the 512 × 512 tile of inner
  products is formed, doubled, exponentiated and summed along its rows, and the row sums are added into a 512 × 1
  scratch that is reset at the first of the eight points and copied to the output block at the last.
  Stated at a parameter `V`, the contents of the core's buffers when the region is entered, and for any float instance.
  `sAt2` is what the scratch holds after each point; the invariant between points carries the scratch at exactly that.
-/
import proofs.«159817_j84318797955094_1_alg».proof.Proof.Gen.KernelIdeal.Launch
import proofs.«159817_j84318797955094_1_alg».proof.Proof.Gen.KernelIdeal.Skeleton
import proofs.«159817_j84318797955094_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the scratch holds after the body at position `n`: at the first of each run of eight points the tile's row sums
    added to the zero column, afterwards added to what the point before left. -/
def sAt2 (c : Dev nD) : (n : ℕ) → n < cfg2.N → Vec F S512x1 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (sAt2 c n (Nat.lt_of_succ_lt hn))

theorem sAt2_reset (c : Dev nD) (t : Fin cfg2.N) (h : t.val % 8 = 0) :
    sAt2 V c t.val t.isLt = k2_pay2 (iblk2 V c 0 t) (iblk2 V c 1 t) (k2_pay1 (F := F)) := by
  obtain ⟨n, hn⟩ := t
  cases n with
  | zero => rfl
  | succ n => exact if_pos h

theorem sAt2_step (c : Dev nD) (t : Fin cfg2.N) (h : ¬ t.val % 8 = 0) :
    sAt2 V c t.val t.isLt = k2_pay2 (iblk2 V c 0 t) (iblk2 V c 1 t) (sAt2 V c (t.val - 1) (Nat.lt_of_le_of_lt (Nat.sub_le _ _) t.isLt)) := by
  obtain ⟨n, hn⟩ := t
  cases n with
  | zero => exact absurd (Nat.zero_mod _) h
  | succ n => exact if_neg h

/-- The scratch operand as a whole memref. -/
abbrev scM2 : Memref sig .tc .vmem S512x1 .f32 := Memref.whole cc2_scratch0

/-- The core's scoped buffers that are neither a staging buffer of this call nor its scratch, each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant before position `n`: before the first point every scoped buffer no window stages at anything and the
    generator register at some state; afterwards the scratch at what the point before left, the others at anything. -/
def PhiS2 (c : Dev nD) : (n : ℕ) → n ≤ cfg2.N → sProp 𝕄
  | 0, _ => Pipeline.ΦA spec2 c
  | n + 1, hn => iprop(owns (c : Thread nD τ) scM2 fullShare (sAt2 V c n hn) ∗ rest2 c ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => sAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = sAt2 V c t.val t.isLt := by dsimp only [dat2]

namespace Reg2Aux

/-! ### The two conditionals of the body, over the grid -/

/-- The first conditional's condition (the second grid coordinate is zero), from the coordinates. -/
abbrev condA (i : grid2.Coords) : Prop :=
  (Scalar.cmpi .ne (Scalar.extui (Scalar.cmpi .eq (BitVec.ofNat 32 (i 1).val) 0#32)) 0#32) = 1#1
/-- It holds exactly at the first of each run of eight points. -/
theorem hcondA : ∀ t : Fin cfg2.N, condA (grid2.coords t) ↔ t.val % 8 = 0 :=
  (by decide +kernel : ∀ t : Fin grid2.N, condA (grid2.coords t) ↔ t.val % 8 = 0)

/-- The second conditional's condition (the second grid coordinate is seven). -/
abbrev condB (i : grid2.Coords) : Prop := k2_cond2 i = 1#1
/-- It holds exactly at the last of each run of eight points. -/
theorem hcondB : ∀ t : Fin cfg2.N, condB (grid2.coords t) ↔ t.val % 8 = 7 :=
  (by decide +kernel : ∀ t : Fin grid2.N, condB (grid2.coords t) ↔ t.val % 8 = 7)

/-- The input windows are never idle. -/
theorem liveAtX : ∀ t : Fin cfg2.N, cfg2.idle 0 (grid2.coords t) = false := by decide +kernel
theorem liveAtY : ∀ t : Fin cfg2.N, cfg2.idle 1 (grid2.coords t) = false := by decide +kernel
/-- The output window is idle, and not written back, off the last of each run of eight points; live at it. -/
theorem idleAtO : ∀ t : Fin cfg2.N, ¬condB (grid2.coords t) → cfg2.idle 2 (grid2.coords t) = true := by decide +kernel
theorem noFlushO : ∀ t : Fin cfg2.N, ¬condB (grid2.coords t) → (cfg2.win 2).flush t = false := by decide +kernel
theorem liveAtO : ∀ t : Fin cfg2.N, condB (grid2.coords t) → cfg2.idle 2 (grid2.coords t) = false := by decide +kernel

/-! ### The invariant opened -/

/-- What the region is entered with gives the scratch whole at some contents, the other scoped buffers and the
    generator register (the conjuncts are matched one by one, whatever their order), -/
theorem PhiAopen (c : Dev nD) :
    (Pipeline.ΦA spec2 c : sProp 𝕄)
      ⊢ iprop((∃ d, owns (c : Thread nD τ) scM2 fullShare d) ∗ rest2 (F := F) c ∗ (∃ r, prngReg c r)) := by
  unfold Pipeline.ΦA rest2; rw [scopedRest2_eq]; simp only [scM2, owns_whole]
  iintro ⟨⟨Ha, Hb, Hc, Hd, He, Hf, Hg, Hh, Hi, Hj, Hk, Hl, Hm, Hn, Ho, Hp⟩, Hq⟩
  iframe

/-- and is given back by them. -/
theorem PhiAclose (c : Dev nD) :
    iprop((∃ d, owns (c : Thread nD τ) scM2 fullShare d) ∗ rest2 (F := F) c ∗ (∃ r, prngReg c r))
      ⊢ (Pipeline.ΦA spec2 c : sProp 𝕄) := by
  unfold Pipeline.ΦA rest2; rw [scopedRest2_eq]; simp only [scM2, owns_whole]
  iintro ⟨Ha, ⟨Hb, Hc, Hd, He, Hf, Hg, Hh, Hi, Hj, Hk, Hl, Hm, Hn, Ho, Hp⟩, Hq⟩
  iframe

theorem PhiS1_zero (c : Dev nD) (n : ℕ) (h : n ≤ cfg2.N) (hz : n = 0) : PhiS2 V c n h = Pipeline.ΦA spec2 c := by
  subst hz; rfl

/-- Before a point that is not the first: the scratch at what the point before left. -/
theorem PhiS1_pos (c : Dev nD) (n : ℕ) (h : n ≤ cfg2.N) (hz : n ≠ 0) :
    PhiS2 V c n h = iprop(owns (c : Thread nD τ) scM2 fullShare (sAt2 V c (n - 1) (by omega)) ∗ rest2 c ∗ (∃ r, prngReg c r)) := by
  cases n with
  | zero => exact absurd rfl hz
  | succ n => rfl

/-- Before any point the invariant gives the scratch at SOME contents. -/
theorem PhiS1_forget (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiAopen c
  | succ n =>
    rw [PhiS1_pos V c _ _ (Nat.succ_ne_zero n)]
    iintro ⟨HS, Hr, Hg⟩
    isplitl [HS]
    · iexists _; iexact HS
    isplitl [Hr]
    · iexact Hr
    iexact Hg

/-! ### Loads and stores through the whole buffer -/

/-- The offsets of every load and store of the body are zero. -/
theorem zerosS : (![0, 0] : Fin S512x1.rank → Nat) = fun _ => 0 := by funext a; fin_cases a <;> rfl
theorem zerosX : (![0, 0] : Fin S512x256.rank → Nat) = fun _ => 0 := by funext a; fin_cases a <;> rfl

/-- A load through the whole buffer reads its contents. -/
theorem readAtS {κ : Kind} {sp : Space} (v : View sig κ sp S512x1 .f32) (f : v.ty.Contents (Elt F)) :
    v.readAt (Elt F) (Rect.unit (s := S512x1) ![0, 0] S512x1.size inb_S512x1_S512x1_0_0).toLoadRect f = v.read (Elt F) f :=
  (View.readAt_eq_ld v f _).trans (View.ld_unit_zero zerosS _ _)
theorem readAtX {κ : Kind} {sp : Space} (v : View sig κ sp S512x256 .f32) (f : v.ty.Contents (Elt F)) :
    v.readAt (Elt F) (Rect.unit (s := S512x256) ![0, 0] S512x256.size inb_S512x256_S512x256_0_0).toLoadRect f = v.read (Elt F) f :=
  (View.readAt_eq_ld v f _).trans (View.ld_unit_zero zerosX _ _)

/-- One store of the whole buffer of the scratch's shape. -/
abbrev pcS (w : Vec F S512x1 .f32) : View.Piece (Elt F) S512x1 .f32 :=
  ⟨Rect.unit (s := S512x1) ![0, 0] S512x1.size inb_S512x1_S512x1_0_0, w⟩

/-- It covers the buffer. -/
theorem coverS (w : Vec F S512x1 .f32) (L : List (View.Piece (Elt F) S512x1 .f32)) (y : S512x1.Idx) :
    ∃ p ∈ (pcS w :: L), y ∈ p.1.set :=
  ⟨pcS w, List.Mem.head _, View.mem_set_unit_zero zerosS inb_S512x1_S512x1_0_0 y⟩

/-- After a store of the whole buffer it reads what was stored, whatever the earlier stores were; -/
theorem readWritesS {κ : Kind} {sp : Space} (v : View sig κ sp S512x1 .f32) (f : v.ty.Contents (Elt F))
    (w : Vec F S512x1 .f32) (L : List (View.Piece (Elt F) S512x1 .f32)) :
    v.read (Elt F) (v.writes (Elt F) f (pcS w :: L)) = w :=
  (View.read_writes_eq_canon v f (pcS w :: L) (coverS w L)).trans
    (View.canon_cons_unit_zero zerosS inb_S512x1_S512x1_0_0 w L)

/-- and so does a load of the whole buffer right after the store. -/
theorem readCovS {κ : Kind} {sp : Space} (v : View sig κ sp S512x1 .f32) (w : Vec F S512x1 .f32) :
    v.readCov [pcS w] (Rect.unit (s := S512x1) ![0, 0] S512x1.size inb_S512x1_S512x1_0_0).toLoadRect = w :=
  View.readCov_unit_zero v zerosS inb_S512x1_S512x1_0_0 w

/-! ### The body's run, one case of the two conditionals at a time -/

set_option maxHeartbeats 1000000 in
/-- At the first of eight points: the scratch, found at anything, is zeroed, then the tile's row sums are added into it;
    the output's buffer is not touched. -/
theorem runA (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : condA i) (hcB : ¬condB i)
    (xa xb : Vec F S512x256 .f32) (xo : Vec F S512x1 .f32) (K : PUnit → sProp 𝕄) :
    iprop(owns (c : Thread nD τ) arg2 fullShare xa ∗ owns (c : Thread nD τ) arg3 fullShare xb
        ∗ owns (c : Thread nD τ) arg4 fullShare xo ∗ (∃ d, owns (c : Thread nD τ) arg5 fullShare d)
        ∗ (iprop(owns (c : Thread nD τ) arg2 fullShare xa ∗ owns (c : Thread nD τ) arg3 fullShare xb
            ∗ owns (c : Thread nD τ) arg4 fullShare xo ∗ owns (c : Thread nD τ) arg5 fullShare (k2_pay2 xa xb (k2_pay1 (F := F)))) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%fo, %hfo, HO⟩, ⟨%ds, %fs, -, HS⟩, Hk⟩
  subst hfa; subst hfb; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readCovS, readAtX, readAtX]

set_option maxHeartbeats 1000000 in
/-- At a point neither first nor last of eight: the tile's row sums are added into the scratch; the output's buffer is
    not touched. -/
theorem runB (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : ¬condB i)
    (xa xb : Vec F S512x256 .f32) (xo xs : Vec F S512x1 .f32) (K : PUnit → sProp 𝕄) :
    iprop(owns (c : Thread nD τ) arg2 fullShare xa ∗ owns (c : Thread nD τ) arg3 fullShare xb
        ∗ owns (c : Thread nD τ) arg4 fullShare xo ∗ owns (c : Thread nD τ) arg5 fullShare xs
        ∗ (iprop(owns (c : Thread nD τ) arg2 fullShare xa ∗ owns (c : Thread nD τ) arg3 fullShare xb
            ∗ owns (c : Thread nD τ) arg4 fullShare xo ∗ owns (c : Thread nD τ) arg5 fullShare (k2_pay2 xa xb xs)) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%fo, %hfo, HO⟩, ⟨%fs, %hfs, HS⟩, Hk⟩
  subst hfa; subst hfb; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists fo; isplitr; · ipureintro; rfl
    iexact HO
  iexists _; isplitr
  swap; · iexact HS
  ipureintro
  sl_unfold_run_names
  rw [readWritesS, readAtS, readAtX, readAtX]

set_option maxHeartbeats 1000000 in
/-- At the last of eight points: the tile's row sums are added into the scratch, and the scratch is copied to the
    output's buffer, found at anything. -/
theorem runC (c : Dev nD) (E : Set ℕ) (i : grid2.Coords) (arg2 : Memref sig .tc .vmem S512x256 .f32) (harg2 : arg2.IsWhole)
    (arg3 : Memref sig .tc .vmem S512x256 .f32) (harg3 : arg3.IsWhole) (arg4 : Memref sig .tc .vmem S512x1 .f32) (harg4 : arg4.IsWhole)
    (arg5 : Memref sig .tc .vmem S512x1 .f32) (harg5 : arg5.IsWhole) (hcA : ¬condA i) (hcB : condB i)
    (xa xb : Vec F S512x256 .f32) (xs : Vec F S512x1 .f32) (K : PUnit → sProp 𝕄) :
    iprop(owns (c : Thread nD τ) arg2 fullShare xa ∗ owns (c : Thread nD τ) arg3 fullShare xb
        ∗ (∃ d, owns (c : Thread nD τ) arg4 fullShare d) ∗ owns (c : Thread nD τ) arg5 fullShare xs
        ∗ (iprop(owns (c : Thread nD τ) arg2 fullShare xa ∗ owns (c : Thread nD τ) arg3 fullShare xb
            ∗ owns (c : Thread nD τ) arg4 fullShare (k2_pay2 xa xb xs) ∗ owns (c : Thread nD τ) arg5 fullShare (k2_pay2 xa xb xs)) -∗ K ⟨⟩))
      ⊢ wp frame (wpE (defs₀ (F := F)) Variants.none c none) E (cc2__sim_sum_kernel i arg2 harg2 arg3 harg3 arg4 harg4 arg5 harg5) K := by
  simp only [cc2__sim_sum_kernel_eq_skeleton]; unfold cc2__sim_sum_kernel_skel
  unfold owns
  iintro ⟨⟨%fa, %hfa, Ha⟩, ⟨%fb, %hfb, Hb⟩, ⟨%dO, %fo, -, HO⟩, ⟨%fs, %hfs, HS⟩, Hk⟩
  subst hfa; subst hfb; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [HO]
  · iexists _; isplitr
    swap; · iexact HO
    ipureintro
    sl_unfold_run_names
    rw [readWritesS, readCovS, readAtS, readAtX, readAtX]
  iexists _; isplitr
  swap; · iexact HS
  ipureintro
  sl_unfold_run_names
  rw [readWritesS, readAtS, readAtX, readAtX]

/-! ### The body obligation at a generic point -/

/-- The invariant at a point's start and end, restated at the point's position. -/
theorem PhiS1_castSucc (c : Dev nD) (t : Fin cfg2.N) :
    (dat2 V c).Φ t.castSucc = PhiS2 V c t.val (Nat.le_of_lt t.isLt) := by
  dsimp only [dat2]; simp only [Fin.coe_castSucc]

theorem PhiS1_succ (c : Dev nD) (n : ℕ) (hn : n < cfg2.N) :
    PhiS2 V c (n + 1) hn = iprop(owns (c : Thread nD τ) scM2 fullShare (sAt2 V c n hn) ∗ rest2 c ∗ (∃ r, prngReg c r)) := rfl

/-- Each input window's current staging buffer holds its block at every point, fetched there or not. -/
theorem before_X (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before_Y (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1000000 in
/-- The body at any point. The inputs' buffers hold their blocks; the point's position among its eight decides the two
    conditionals; the invariant hands the scratch over at what the point before left (at anything where the body zeroes
    it first) and takes it back at this point's contents; the output's buffer comes back untouched except at the last
    of the eight, where it holds the scratch's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_X, before_Y]
  rw [show (dat2 V c).owesAt () t.succ = (dat2 V c).owesAt () t.castSucc from rfl]
  rw [show (dat2 V c).Φ t.succ = PhiS2 V c (t.val + 1) t.isLt from rfl, PhiS1_succ, PhiS1_castSucc V c t]
  rw [show (dat2 V c).leavesExact 0 t = owns (c : Thread nD τ) (st2_0 t) fullShare ((dat2 V c).after 0 t) from by
    unfold Dat.leavesExact; rw [liveAtX t], after2_0]
  rw [show (dat2 V c).leavesExact 1 t = owns (c : Thread nD τ) (st2_1 t) fullShare ((dat2 V c).after 1 t) from by
    unfold Dat.leavesExact; rw [liveAtY t], after2_1]
  by_cases hA : t.val % 8 = 0
  · have hB : ¬ t.val % 8 = 7 := by omega
    have hcA : condA (grid2.coords t) := (hcondA t).mpr hA
    have hcB : ¬condB (grid2.coords t) := fun h => hB ((hcondB t).mp h)
    rw [Dat.leavesExact_idle (dat2 V c) 2 t (idleAtO t hcB) (noFlushO t hcB), sAt2_reset V c t hA]
    refine (sep_mono_left (PhiS1_forget V c _ _)).trans ?_
    iintro ⟨⟨HS, Hr, Hg⟩, Ho, ⟨%da, Ha⟩, ⟨%db, Hb⟩, ⟨%dO, HO⟩⟩
    iapply (runA c Set.univ (grid2.coords t) _ _ _ _ _ _ _ _ hcA hcB (iblk2 V c 0 t) (iblk2 V c 1 t) _ _)
    isplitl [Ha]; · iexact Ha
    isplitl [Hb]; · iexact Hb
    isplitl [HO]; · iexact HO
    isplitl [HS]; · iexact HS
    iintro ⟨Ha, Hb, HO, HS⟩
    isplitl [HS Hr Hg]
    · isplitl [HS]; · iexact HS
      isplitl [Hr]; · iexact Hr
      iexact Hg
    isplitl [Ho]; · iexact Ho
    isplitl [Ha]; · iexact Ha
    isplitl [Hb]; · iexact Hb
    iexists _; iexact HO
  · have hcA : ¬condA (grid2.coords t) := fun h => hA ((hcondA t).mp h)
    have hz : t.val ≠ 0 := fun h => hA (by rw [h])
    rw [PhiS1_pos V c _ _ hz, sAt2_step V c t hA]
    by_cases hB : t.val % 8 = 7
    · have hcB : condB (grid2.coords t) := (hcondB t).mpr hB
      rw [show (dat2 V c).leavesExact 2 t = owns (c : Thread nD τ) (st2_2 t) fullShare ((dat2 V c).after 2 t) from by
        unfold Dat.leavesExact; rw [liveAtO t hcB], after2_2, sAt2_step V c t hA]
      iintro ⟨⟨HS, Hr, Hg⟩, Ho, ⟨%da, Ha⟩, ⟨%db, Hb⟩, ⟨%dO, HO⟩⟩
      iapply (runC c Set.univ (grid2.coords t) _ _ _ _ _ _ _ _ hcA hcB (iblk2 V c 0 t) (iblk2 V c 1 t) _ _)
      isplitl [Ha]; · iexact Ha
      isplitl [Hb]; · iexact Hb
      isplitl [HO]; · iexists _; iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexact HO
    · have hcB : ¬condB (grid2.coords t) := fun h => hB ((hcondB t).mp h)
      rw [Dat.leavesExact_idle (dat2 V c) 2 t (idleAtO t hcB) (noFlushO t hcB)]
      iintro ⟨⟨HS, Hr, Hg⟩, Ho, ⟨%da, Ha⟩, ⟨%db, Hb⟩, ⟨%dO, HO⟩⟩
      iapply (runB c Set.univ (grid2.coords t) _ _ _ _ _ _ _ _ hcA hcB (iblk2 V c 0 t) (iblk2 V c 1 t) _ _ _)
      isplitl [Ha]; · iexact Ha
      isplitl [Hb]; · iexact Hb
      isplitl [HO]; · iexact HO
      isplitl [HS]; · iexact HS
      iintro ⟨Ha, Hb, HO, HS⟩
      isplitl [HS Hr Hg]
      · isplitl [HS]; · iexact HS
        isplitl [Hr]; · iexact Hr
        iexact Hg
      isplitl [Ho]; · iexact Ho
      isplitl [Ha]; · iexact Ha
      isplitl [Hb]; · iexact Hb
      iexists _; iexact HO

end Reg2Aux

open Reg2Aux in
/-- The library's body obligation, at every point. -/
theorem body_obligation2 (c : Dev nD) : BodyObligation (dat2 (F := F) V c) (defs₀ (F := F)) Variants.none () Set.univ := fun t => by
  rw [bigSep_W2, bigSep_W2]
  exact sound_body V c t

open Reg2Aux in
/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS1_zero V c 0 _ rfl]

open Reg2Aux in
/-- After the last point the invariant gives the scoped rest and the generator register back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS1_forget V c _ _).trans (PhiAclose c)

end Region2

end Cert.KernelIdeal.Hand

end
-- ==== Proof.Run.lean ====
/-
  The run of the kernel's program: @main is region 0, region 1, one host operation, region 2, twenty-one host
  operations.  `WJ` are the contents of the core's unscoped buffers at each boundary, a fold from the launch memory
  (a host stretch applies its operations; a region leaves its arrays at what its write-backs make of them and every
  other buffer alone).  Each region is a segment over the thread state "every unscoped buffer at the boundary's
  contents, the generator register at some state, nothing owed", each host stretch a segment of its operations, and
  the launch theorem for a list of segments gives: every weakly fair execution terminates, and every unscoped buffer
  ends holding `W5`.  The frame (the two arguments end as launched) is read off `W5`.
-/
import proofs.«159817_j84318797955094_1_alg».proof.Proof.Gen.KernelIdeal.Launch
import proofs.«159817_j84318797955094_1_alg».proof.Proof.Gen.KernelIdeal.Skeleton
import proofs.«159817_j84318797955094_1_alg».proof.Proof.Gen.KernelIdeal.Points
import proofs.«159817_j84318797955094_1_alg».proof.Proof.Reg0
import proofs.«159817_j84318797955094_1_alg».proof.Proof.Reg1
import proofs.«159817_j84318797955094_1_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b

/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the one host operation between regions 1 and 2 (region 2's entry). -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the host operations that follow region 2: the end. -/
abbrev W5 : Dev nD → Valuation τ sig (Elt F) := fun c => StableHlo.after hostOps3 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
  | ⟨2, _⟩ => fun c => dat2 (V3 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (W5 m c) ∗ ∃ r, prngReg c r)

/-- The generator register and a region's scoped rest make the class invariant, and back (whatever rides between). -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c) ⊢ (Pipeline.ΦA win c : sProp 𝕄) := by
  unfold Pipeline.ΦA
  iintro ⟨Hp, -, Hr⟩
  isplitl [Hr]; · iexact Hr
  iexact Hp
theorem phiA_out {gr W : Nat} (win : Fin W → Pipeline.WinSpec sig gr) (c : Dev nD) :
    (Pipeline.ΦA win c : sProp 𝕄) ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr
/-- The last host stretch's post is the last thread state beside the core owing nothing. -/
theorem lastT (c : Dev nD) :
    iprop(StableHlo.held (c : Thread nD τ) (Pipeline.ucRefs τ sig) (W5 m c) ∗ RH (F := F) c)
      ⊢ iprop(TH m c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at `W0`, left at `W1`. Its arrays are
    split out of the unscoped buffers and put back at the exit contents; the generator register goes into the
    region's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the
    region's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ LH lvH 1 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_in spec1 c _).trans (hin1 (V1 m) c)
  hout c := by
    rw [Pipeline.ownSems0_none]
    exact (hout1 (V1 m) c).trans (phiA_out spec1 c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at the exit contents; the generator register goes into the
    region's invariant and comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ LH lvH 2 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_in spec2 c _).trans (hin2 (V3 m) c)
  hout c := by
    rw [Pipeline.ownSems0_none]
    exact (hout2 (V3 m) c).trans (phiA_out spec2 c)
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .region (reg0 m),
    .region (reg1 m),
    .host (hseg hostOps2 hostOps2_sub hostOps2_freshH (W2 m)),
    .region (reg2 m),
    .host (hseg hostOps3 hostOps3_sub hostOps3_freshH (W4 m)) ]
theorem main_run (c : Dev nD) : main (F := F) c = Pipeline.Seg.run (segsH m) := (main_chain c).trans (by chain_rfl)

set_option backward.isDefEq.respectTransparency.types false in
/-- THE RUN: every weakly fair execution of @main terminates, nothing faulting, and every unscoped buffer ends
    holding `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun c => lastT m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any float instance: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

end Cert.KernelIdeal.Hand

end
-- ==== Proof.Spec.lean ====
/-
  The mathematics both programs compute, stated once over the extended reals and over no program.

  Inputs: two 4096 × 256 matrices.  Each row is divided by its Euclidean norm clamped below by a small
  constant (`nrm`).  With a, b the two row-normalized matrices, the loss is the mean over 8192 rows of
  -log (exp (p / T) / denominator), where p is the inner product of the matching rows of a and b and the
  denominator is the sum over the OTHER view's 4096 rows of exp (inner product / T), T = 1/2.

  The kernel's form (`kernelResult`): the two denominators are computed separately, each as eight
  partial sums over tiles of 512 columns, the exponent's argument being the inner product TIMES 2.
  The reference's form (`refResult`): one 8192 × 8192 similarity matrix of the stacked rows, divided by 1/2, masked
  by a 0/1 mask that keeps the cross-view blocks, summed along each whole row.
  `bridge` says the two forms are equal for ALL extended-real matrices: only regrouping of finite sums,
  0 · x = 0, 1 · x = x, commutativity of the product and x / (1/2) = x · 2 are used, none of which needs finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A 4096 × 256 matrix of extended reals, by coordinates. -/
abbrev Mat : Type := Fin 4096 → Fin 256 → EReal

/-- An array of shape [4096, 256] read by coordinates. -/
def toMat (v : (⟨2, ![4096, 256]⟩ : Shape).Idx → EReal) : Mat := fun r d => v (ix2 r d)

/-- The clamp of the norm, the temperature 1/2, its reciprocal 2 and the divisor 8192, each as the f32 word both programs print. -/
def eps : EReal := Ideal.ofBits .f32 0x2B8CBCCC#32
def half : EReal := Ideal.ofBits .f32 0x3F000000#32
def two : EReal := Ideal.ofBits .f32 0x40000000#32
def cnt : EReal := Ideal.ofBits .f32 0x46000000#32

/-- Row normalization: each entry over the row's norm clamped below by `eps`. -/
def nrm (x : Mat) : Mat := fun r d => Ideal.div (x r d) (max (Ideal.sqrt (∑ k : Fin 256, x r k * x r k)) eps)

/-- The inner product of row `r` of `a` with row `c` of `b`. -/
def dot (a b : Mat) (r c : Fin 4096) : EReal := ∑ k : Fin 256, a r k * b c k

/-- Column `c` of tile `j` (tiles of 512 columns). -/
def col (j : Fin 8) (c : Fin 512) : Fin 4096 := ⟨512 * j.val + c.val, by have := j.isLt; have := c.isLt; omega⟩

/-- One tile's contribution to row `r`'s denominator: the sum over the tile's 512 columns of exp (2 · inner product). -/
def tileSum (a b : Mat) (r : Fin 4096) (j : Fin 8) : EReal := ∑ c : Fin 512, Ideal.exp (dot a b r (col j c) * two)

/-- The kernel's denominator of row `r`: the eight tiles' contributions added up. -/
def denomK (a b : Mat) (r : Fin 4096) : EReal := ∑ j : Fin 8, tileSum a b r j

/-- The numerator exp (p / T), p the inner product of the matching rows. -/
def nom (a b : Mat) (r : Fin 4096) : EReal := Ideal.exp (Ideal.div (dot a b r r) half)

/-- One row's loss for a given denominator. -/
def lossOf (n d : EReal) : EReal := -(Ideal.log (Ideal.div n d))

/-- The kernel's result from the normalized matrices. -/
def kernelOf (a b : Mat) : EReal :=
  Ideal.div ((∑ r : Fin 4096, lossOf (nom a b r) (denomK a b r)) + (∑ r : Fin 4096, lossOf (nom a b r) (denomK b a r))) cnt

/-- The kernel's result from the inputs. -/
def kernelResult (x y : Mat) : EReal := kernelOf (nrm x) (nrm y)

/-- The two normalized matrices stacked: rows 0..4095 are `a`'s, rows 4096..8191 are `b`'s. -/
def reps (a b : Mat) : Fin 8192 → Fin 256 → EReal :=
  fun r k => if h : r.val < 4096 then a ⟨r.val, h⟩ k else b ⟨r.val - 4096, by have := r.isLt; omega⟩ k

/-- The similarity matrix of the stacked rows. -/
def sim (a b : Mat) (r c : Fin 8192) : EReal := ∑ k : Fin 256, reps a b r k * reps a b c k

/-- 0 on the first view's rows, 1 on the second's. -/
def view (r : Fin 8192) : EReal := if 4096 ≤ r.val then 1 else 0

/-- The mask: 1 where row and column belong to different views. -/
def mask (r c : Fin 8192) : EReal := if view r ≠ view c then 1 else 0

/-- The reference's denominator of (stacked) row `r`. -/
def denomR (a b : Mat) (r : Fin 8192) : EReal := ∑ c : Fin 8192, mask r c * Ideal.exp (Ideal.div (sim a b r c) half)

/-- The partner of a stacked row: the same row of the other view. -/
def partner (r : Fin 8192) : Fin 8192 :=
  if h : r.val < 4096 then ⟨r.val + 4096, by omega⟩ else ⟨r.val - 4096, by have := r.isLt; omega⟩

/-- The reference's result from the normalized matrices. -/
def refOf (a b : Mat) : EReal :=
  Ideal.div (∑ r : Fin 8192, lossOf (Ideal.exp (Ideal.div (sim a b r (partner r)) half)) (denomR a b r)) cnt

/-- The reference's result from the inputs. -/
def refResult (x y : Mat) : EReal := refOf (nrm x) (nrm y)

/-! ### The two constants: `half` is the real 1/2 and `two` the real 2, so dividing by `half` is multiplying by `two`. -/

theorem half_eq : half = (((1 : ℝ) / 2 : ℝ) : EReal) := by
  unfold half
  simp [Ideal.ofBits, Ideal.ieee, -EReal.coe_mul]; norm_num

theorem two_eq : two = ((2 : ℝ) : EReal) := by
  unfold two
  simp [Ideal.ofBits, Ideal.ieee, -EReal.coe_mul]; norm_num

theorem div_half (x : EReal) : Ideal.div x half = x * two := by
  rw [half_eq, two_eq, Ideal.div_coe (by norm_num)]
  norm_num

/-! ### The stacked index: `lo r` is row `r` of the first view, `hi r` row `r` of the second. -/

/-- Row `r` of the first view among the stacked rows. -/
def lo (r : Fin 4096) : Fin 8192 := ⟨r.val, by have := r.isLt; omega⟩

/-- Row `r` of the second view among the stacked rows. -/
def hi (r : Fin 4096) : Fin 8192 := ⟨4096 + r.val, by have := r.isLt; omega⟩

/-- A sum over the 8192 stacked rows is the first view's sum plus the second view's. -/
theorem sum_split (f : Fin 8192 → EReal) :
    ∑ r : Fin 8192, f r = (∑ r : Fin 4096, f (lo r)) + ∑ r : Fin 4096, f (hi r) :=
  Fin.sum_univ_add (a := 4096) (b := 4096) f

/-- The eight tiles of 512 columns exhaust the 4096 columns, each once. -/
theorem sum_tiles (g : Fin 4096 → EReal) :
    ∑ j : Fin 8, ∑ c : Fin 512, g (col j c) = ∑ c : Fin 4096, g c := by
  rw [← Fintype.sum_prod_type']
  refine Fintype.sum_equiv (finProdFinEquiv (m := 8) (n := 512)) _ _ (fun x => ?_)
  refine congrArg g (Fin.ext ?_)
  simp only [col, finProdFinEquiv, Equiv.coe_fn_mk]
  omega

theorem reps_lo (a b : Mat) (r : Fin 4096) : reps a b (lo r) = a r := by
  funext k
  have h : (lo r).val < 4096 := r.isLt
  simp only [reps, dif_pos h]
  rfl

theorem reps_hi (a b : Mat) (r : Fin 4096) : reps a b (hi r) = b r := by
  funext k
  have h : ¬ (hi r).val < 4096 := by simp only [hi]; omega
  simp only [reps, dif_neg h]
  refine congrArg (fun i => b i k) (Fin.ext ?_)
  simp only [hi]
  omega

theorem partner_lo (r : Fin 4096) : partner (lo r) = hi r := by
  have h : (lo r).val < 4096 := r.isLt
  simp only [partner, dif_pos h]
  apply Fin.ext
  simp only [lo, hi]
  omega

theorem partner_hi (r : Fin 4096) : partner (hi r) = lo r := by
  have h : ¬ (hi r).val < 4096 := by simp only [hi]; omega
  simp only [partner, dif_neg h]
  apply Fin.ext
  simp only [lo, hi]
  omega

theorem view_lo (r : Fin 4096) : view (lo r) = 0 := by
  have h : ¬ 4096 ≤ (lo r).val := by have := r.isLt; simp only [lo]; omega
  simp only [view, if_neg h]

theorem view_hi (r : Fin 4096) : view (hi r) = 1 := by
  have h : 4096 ≤ (hi r).val := by simp only [hi]; omega
  simp only [view, if_pos h]

theorem mask_lo_lo (r c : Fin 4096) : mask (lo r) (lo c) = 0 := by
  simp only [mask, view_lo, ne_eq, not_true_eq_false, if_false]

theorem mask_hi_hi (r c : Fin 4096) : mask (hi r) (hi c) = 0 := by
  simp only [mask, view_hi, ne_eq, not_true_eq_false, if_false]

theorem mask_lo_hi (r c : Fin 4096) : mask (lo r) (hi c) = 1 := by
  have h : (0 : EReal) ≠ 1 := zero_ne_one
  simp only [mask, view_lo, view_hi, if_pos h]

theorem mask_hi_lo (r c : Fin 4096) : mask (hi r) (lo c) = 1 := by
  have h : (1 : EReal) ≠ 0 := one_ne_zero
  simp only [mask, view_lo, view_hi, if_pos h]

/-- Across the views the stacked similarity is the inner product of a row of `a` with a row of `b`. -/
theorem sim_lo_hi (a b : Mat) (r c : Fin 4096) : sim a b (lo r) (hi c) = dot a b r c := by
  simp only [sim, dot, reps_lo, reps_hi]

theorem sim_hi_lo (a b : Mat) (r c : Fin 4096) : sim a b (hi r) (lo c) = dot b a r c := by
  simp only [sim, dot, reps_lo, reps_hi]

theorem dot_comm (a b : Mat) (r c : Fin 4096) : dot a b r c = dot b a c r := by
  simp only [dot]
  exact Finset.sum_congr rfl (fun k _ => mul_comm _ _)

/-- The kernel's denominator is the sum over all 4096 columns. -/
theorem denomK_eq (a b : Mat) (r : Fin 4096) :
    denomK a b r = ∑ c : Fin 4096, Ideal.exp (dot a b r c * two) := by
  simp only [denomK, tileSum]
  exact sum_tiles (fun c => Ideal.exp (dot a b r c * two))

/-- A first-view row's masked row sum keeps the second view's columns only. -/
theorem denomR_lo (a b : Mat) (r : Fin 4096) : denomR a b (lo r) = denomK a b r := by
  rw [denomK_eq, denomR, sum_split]
  simp only [mask_lo_lo, mask_lo_hi, zero_mul, one_mul, Finset.sum_const_zero, zero_add, sim_lo_hi, div_half]

/-- A second-view row's masked row sum keeps the first view's columns only. -/
theorem denomR_hi (a b : Mat) (r : Fin 4096) : denomR a b (hi r) = denomK b a r := by
  rw [denomK_eq, denomR, sum_split]
  simp only [mask_hi_hi, mask_hi_lo, zero_mul, one_mul, Finset.sum_const_zero, add_zero, sim_hi_lo, div_half]

theorem nom_lo (a b : Mat) (r : Fin 4096) :
    Ideal.exp (Ideal.div (sim a b (lo r) (partner (lo r))) half) = nom a b r := by
  rw [partner_lo, sim_lo_hi, nom]

theorem nom_hi (a b : Mat) (r : Fin 4096) :
    Ideal.exp (Ideal.div (sim a b (hi r) (partner (hi r))) half) = nom a b r := by
  rw [partner_hi, sim_hi_lo, nom, dot_comm]

/-- The two forms agree on all extended-real matrices. -/
theorem bridge_of (a b : Mat) : kernelOf a b = refOf a b := by
  unfold kernelOf refOf
  rw [sum_split]
  simp only [nom_lo, nom_hi, denomR_lo, denomR_hi]

theorem bridge (x y : Mat) : kernelResult x y = refResult x y := bridge_of _ _

end Cert.Spec

end
-- ==== Proof.SpecArr.lean ====
/-
  The specification read over ARRAYS (functions of a shape's index) rather than over coordinates: what each kernel
  region leaves in its output array, and the kernel's result as a function of the four arrays the regions leave.
  Nothing here mentions a program.
-/
import proofs.«159817_j84318797955094_1_alg».proof.Proof.Spec

noncomputable section

namespace Cert.Spec

open Idealize.ShloMosaic Idealize.ShloMosaic.ValueIdx
open scoped BigOperators

/-- Arrays of shape [4096, 256], [4096, 1] and [] over the extended reals. -/
abbrev Arr : Type := (⟨2, ![4096, 256]⟩ : Shape).Idx → EReal
abbrev ColArr : Type := (⟨2, ![4096, 1]⟩ : Shape).Idx → EReal
abbrev Sca : Type := (⟨0, ![]⟩ : Shape).Idx → EReal

/-- The row-normalized array. -/
def nrmArr (x : Arr) : Arr := fun i => nrm (toMat x) (i 0) (i 1)

/-- The column of denominators: entry (r, 0) is the sum over all 4096 rows c of `b` of exp (2 · ⟨a r, b c⟩), tile by tile. -/
def denomArr (a b : Arr) : ColArr := fun i => denomK (toMat a) (toMat b) (i 0)

theorem toMat_nrmArr (x : Arr) : toMat (nrmArr x) = nrm (toMat x) := rfl

theorem denomArr_apply (a b : Arr) (r : Fin 4096) : denomArr a b (ix2 r (0 : Fin 1)) = denomK (toMat a) (toMat b) r := rfl

/-- The kernel's scalar result from the two normalized arrays and the two columns of denominators. -/
def tailOf (a b : Arr) (d1 d2 : ColArr) : Sca := fun _ =>
  Ideal.div ((∑ r : Fin 4096, lossOf (nom (toMat a) (toMat b) r) (d1 (ix2 r (0 : Fin 1))))
    + (∑ r : Fin 4096, lossOf (nom (toMat a) (toMat b) r) (d2 (ix2 r (0 : Fin 1))))) cnt

/-- With the arrays the three regions leave, that is the kernel's form of the loss. -/
theorem tailOf_regions (x y : Arr) :
    tailOf (nrmArr x) (nrmArr y) (denomArr (nrmArr x) (nrmArr y)) (denomArr (nrmArr y) (nrmArr x))
      = fun _ => kernelResult (toMat x) (toMat y) := rfl

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Val0.lean ====
/-
  What region 0 leaves in its two output arrays, at the ideal instance: the row-normalized input arrays.
  Each grid point writes back the block of 512 normalized rows; a row's normalization reads only that row, so the
  block of the normalized array is the normalized block, and the eight blocks tile the array.
-/
import proofs.«159817_j84318797955094_1_alg».proof.Proof.Reg0
import proofs.«159817_j84318797955094_1_alg».proof.Proof.SpecArr
import proofs.«159817_j84318797955094_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's payload at an entry -/

/-- The index a sum along the lanes inserts into row `p`: lane `k` of that row. -/
theorem lift_row (p : Fin 512) (k : Fin 256) :
    reduces_S512x256_S512.lift (ix1 p) k = ix2 p k := by
  funext a
  apply Fin.ext
  match a with
  | ⟨0, _⟩ => rfl
  | ⟨1, _⟩ => rfl

/-- The payload at entry `(p, q)` of a block: the entry over the Euclidean norm of row `p`, the norm clamped below.
    The quotient is pointwise; the divisor is a column broadcast across the lanes, so it reads row `p`'s entry of the
    column; the column is the maximum of a square root (pointwise) and a constant; under the root is the row's sum of
    squares, a lane sum cast to a column. -/
theorem pay1_apply (x0 : Vec Ideal S512x256 .f32) (p : Fin 512) (q : Fin 256) :
    k0_pay1 (F := Ideal) x0 (ix2 p q)
      = Ideal.div (x0 (ix2 p q)) (max (Ideal.sqrt (∑ k : Fin 256, x0 (ix2 p k) * x0 (ix2 p k))) Cert.Spec.eps) := by
  unfold k0_pay1
  dsimp only
  refine (divf_apply (s := S512x256) (φ := .f32) _ _ _).trans ?_
  refine congrArg (Ideal.div (x0 (ix2 p q))) ?_
  refine (Cert.LibColumn.broadcastTo_a1_ab_apply _ broadcasts_S512x1_S512x256 p q).trans ?_
  refine (maximumf_apply (s := S512x1) (φ := .f32) _ _ _).trans ?_
  refine congrArg₂ max ?_ rfl
  show Ideal.sqrt _ = _
  refine congrArg Ideal.sqrt ?_
  refine (Cert.LibColumn.shapeCast_a_a1_apply _ shapeCasts_S512_S512x1 p 0).trans ?_
  refine (Ideal.multiReduction_add_single _ _ _ _ _ _).trans ?_
  refine Finset.sum_congr rfl fun k _ => ?_
  exact congrArg (fun i => x0 i * x0 i) (lift_row p k)

/-- The second output's payload is the same function of its block. -/
theorem pay2_eq (x1 : Vec Ideal S512x256 .f32) : k0_pay2 (F := Ideal) x1 = k0_pay1 x1 := rfl

/-! ## What the body leaves in an output block -/

theorem hz : (![0, 0] : Fin 2 → Nat) = fun _ => 0 := funext fun a => by fin_cases a <;> rfl

/-- The one store through the whole block leaves the payload of the whole loaded block. -/
theorem out0_2_eq (x0 : Vec Ideal S512x256 .f32) : out0_2 (F := Ideal) x0 = k0_pay1 x0 := by
  unfold out0_2
  rw [View.canon_unit_zero hz]
  simp only [View.ld_unit_zero (S := S512x256) hz]

theorem out0_3_eq (x1 : Vec Ideal S512x256 .f32) : out0_3 (F := Ideal) x1 = k0_pay1 x1 := by
  unfold out0_3
  rw [View.canon_unit_zero hz]
  simp only [View.ld_unit_zero (S := S512x256) hz]
  exact pay2_eq x1

/-- A block whose row `p` is row `r p` of an array `A` normalizes to the same rows of the normalized array: the
    normalization of a row reads that row only. -/
theorem nrm_block (A : Cert.Spec.Arr) (x0 : Vec Ideal S512x256 .f32) (r : Fin 512 → Fin 4096)
    (hx : ∀ (p : Fin 512) (q : Fin 256), x0 (ix2 p q) = A (ix2 (r p) q)) (j : S512x256.Idx) :
    k0_pay1 (F := Ideal) x0 j = Cert.Spec.nrmArr A (ix2 (r (j 0)) (j 1)) := by
  obtain ⟨p, q, rfl⟩ : ∃ (p : Fin 512) (q : Fin 256), j = ix2 p q := ⟨j 0, j 1, eq_ix2 j⟩
  rw [pay1_apply]
  show _ = Ideal.div (A (ix2 (r p) q)) (max (Ideal.sqrt (∑ k : Fin 256, A (ix2 (r p) k) * A (ix2 (r p) k))) Cert.Spec.eps)
  simp only [hx]

/-! ## The blocks in the arrays -/

/-- The printed index maps, decided over the eight grid points: every window's block index at point `t` is
    `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N0 : cfg0.N = 8 := by decide

/-- Row `p` of the block at point `t` is row `512 t + p` of the array. -/
def rowAt (t : Fin cfg0.N) (p : Fin 512) : Fin 4096 :=
  ⟨t.val * 512 + p.val, by have h8 : t.val < 8 := lt_of_lt_of_eq t.isLt N0; have := p.isLt; omega⟩

section
variable (V : (c : Dev nD) → (b : Ref sig .tc) → Buf (Elt Ideal) ((c : Thread nD τ).loc b))

/-- The first input's block at point `t`, read at `(p, q)`, is the array at `(512 t + p, q)`. -/
theorem iblk0_0_apply (c : Dev nD) (t : Fin cfg0.N) (p : Fin 512) (q : Fin 256) :
    (iblk0 (F := Ideal) V c 0 t : Vec Ideal S512x256 .f32) (ix2 p q)
      = (V c main_arg0 : Cert.Spec.Arr) (ix2 (rowAt t p) q) := by
  obtain ⟨e0, e1, -⟩ := idx_facts t
  unfold iblk0
  rw [View.read_apply]
  show (V c main_arg0 : Cert.Spec.Arr) _ = _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 256 + 1 * q.val = q.val; rw [e1]; omega

/-- The second input's block likewise. -/
theorem iblk0_1_apply (c : Dev nD) (t : Fin cfg0.N) (p : Fin 512) (q : Fin 256) :
    (iblk0 (F := Ideal) V c 1 t : Vec Ideal S512x256 .f32) (ix2 p q)
      = (V c main_arg1 : Cert.Spec.Arr) (ix2 (rowAt t p) q) := by
  obtain ⟨-, -, e0, e1, -⟩ := idx_facts t
  unfold iblk0
  rw [View.read_apply]
  show (V c main_arg1 : Cert.Spec.Arr) _ = _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 256 + 1 * q.val = q.val; rw [e1]; omega

/-- WHAT POINT `t` WRITES BACK to the first output is block `t` of the row-normalized first argument. -/
theorem flushed2_eq (c : Dev nD) (t : Fin cfg0.N) :
    (dat0 (F := Ideal) V c).flushed 2 t
      = ((cfg0.win 2).blk t).view.read (Elt Ideal) (Cert.Spec.nrmArr (V c main_arg0)) := by
  show (cfg0.win 2).cut (grid0.coords t) ((dat0 V c).after 2 t) = _
  rw [after0_2, out0_2_eq]
  obtain ⟨-, -, -, -, e0, e1, -⟩ := idx_facts t
  funext y
  have h0 : (y 0).val < 512 := (y 0).isLt
  have h1 : (y 1).val < 256 := (y 1).isLt
  show k0_pay1 (iblk0 V c 0 t) ((cfg0.win 2).xinj (grid0.coords t) y)
    = Cert.Spec.nrmArr (V c main_arg0) (((cfg0.win 2).blk t).view.emb y)
  rw [nrm_block (V c main_arg0) (iblk0 V c 0 t) (rowAt t) (iblk0_0_apply V c t)]
  congr 1
  funext a
  apply Fin.ext
  match a with
  | ⟨0, _⟩ => show t.val * 512 + (y 0).val = win0_2.index t (0 : Fin 2) * 512 + 1 * (y 0).val; rw [e0]; omega
  | ⟨1, _⟩ => show (y 1).val = win0_2.index t (1 : Fin 2) * 256 + 1 * (y 1).val; rw [e1]; omega

/-- WHAT POINT `t` WRITES BACK to the second output is block `t` of the row-normalized second argument. -/
theorem flushed3_eq (c : Dev nD) (t : Fin cfg0.N) :
    (dat0 (F := Ideal) V c).flushed 3 t
      = ((cfg0.win 3).blk t).view.read (Elt Ideal) (Cert.Spec.nrmArr (V c main_arg1)) := by
  show (cfg0.win 3).cut (grid0.coords t) ((dat0 V c).after 3 t) = _
  rw [after0_3, out0_3_eq]
  obtain ⟨-, -, -, -, -, -, e0, e1⟩ := idx_facts t
  funext y
  have h0 : (y 0).val < 512 := (y 0).isLt
  have h1 : (y 1).val < 256 := (y 1).isLt
  show k0_pay1 (iblk0 V c 1 t) ((cfg0.win 3).xinj (grid0.coords t) y)
    = Cert.Spec.nrmArr (V c main_arg1) (((cfg0.win 3).blk t).view.emb y)
  rw [nrm_block (V c main_arg1) (iblk0 V c 1 t) (rowAt t) (iblk0_1_apply V c t)]
  congr 1
  funext a
  apply Fin.ext
  match a with
  | ⟨0, _⟩ => show t.val * 512 + (y 0).val = win0_3.index t (0 : Fin 2) * 512 + 1 * (y 0).val; rw [e0]; omega
  | ⟨1, _⟩ => show (y 1).val = win0_3.index t (1 : Fin 2) * 256 + 1 * (y 1).val; rw [e1]; omega

end

/-! ## The eight blocks tile each output array -/

/-- An index of the array is in point `t`'s block iff each coordinate is in the block's range on its axis. -/
theorem mem_blk2 (t : Fin cfg0.N) (i : S4096x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0_0).slice (win0_2.rect t)).set ↔ _
  rw [View.set_slice_whole, Rect.mem_set_unit]
  exact Iff.rfl

theorem mem_blk3 (t : Fin cfg0.N) (i : S4096x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v0_1).slice (win0_3.rect t)).set ↔ _
  rw [View.set_slice_whole, Rect.mem_set_unit]
  exact Iff.rfl

/-- The point whose block holds row `r`: `r / 512`. -/
def ptOf (i : S4096x256.Idx) : Fin cfg0.N :=
  ⟨(i 0).val / 512, by rw [N0]; have h : (i 0).val < 4096 := (i 0).isLt; omega⟩

/-- Every index `(r, d)` of the first output lies in the block of point `r / 512`, which is written back. -/
theorem cover2 (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨-, -, -, -, e0, e1, -⟩ := idx_facts (ptOf i)
  have ht : (ptOf i).val = (i 0).val / 512 := rfl
  refine ⟨ptOf i, flush0_2 (ptOf i), ?_⟩
  rw [mem_blk2]
  intro a
  match a with
  | ⟨0, _⟩ =>
    show win0_2.index (ptOf i) (0 : Fin 2) * 512 ≤ (i 0).val ∧ (i 0).val < win0_2.index (ptOf i) (0 : Fin 2) * 512 + 512
    rw [e0, ht]; omega
  | ⟨1, _⟩ =>
    show win0_2.index (ptOf i) (1 : Fin 2) * 256 ≤ (i 1).val ∧ (i 1).val < win0_2.index (ptOf i) (1 : Fin 2) * 256 + 256
    rw [e1]; omega

theorem cover3 (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  obtain ⟨-, -, -, -, -, -, e0, e1⟩ := idx_facts (ptOf i)
  have ht : (ptOf i).val = (i 0).val / 512 := rfl
  refine ⟨ptOf i, flush0_3 (ptOf i), ?_⟩
  rw [mem_blk3]
  intro a
  match a with
  | ⟨0, _⟩ =>
    show win0_3.index (ptOf i) (0 : Fin 2) * 512 ≤ (i 0).val ∧ (i 0).val < win0_3.index (ptOf i) (0 : Fin 2) * 512 + 512
    rw [e0, ht]; omega
  | ⟨1, _⟩ =>
    show win0_3.index (ptOf i) (1 : Fin 2) * 256 ≤ (i 1).val ∧ (i 1).val < win0_3.index (ptOf i) (1 : Fin 2) * 256 + 256
    rw [e1]; omega

/-! ## The arrays after the region -/

section
variable (V : (c : Dev nD) → (b : Ref sig .tc) → Buf (Elt Ideal) ((c : Thread nD τ).loc b))

/-- Output window 2's array after the region: the first argument, row-normalized. -/
theorem final0_2 (c : Dev nD) : (dat0 (F := Ideal) V c).arrAt 2 cfg0.N = Cert.Spec.nrmArr (V c main_arg0) :=
  (dat0 (F := Ideal) V c).arrAt_eq_of_cover 2 _ (fun t _ => flushed2_eq V c t) cover2

/-- Output window 3's array after the region: the second argument, row-normalized. -/
theorem final0_3 (c : Dev nD) : (dat0 (F := Ideal) V c).arrAt 3 cfg0.N = Cert.Spec.nrmArr (V c main_arg1) :=
  (dat0 (F := Ideal) V c).arrAt_eq_of_cover 3 _ (fun t _ => flushed3_eq V c t) cover3

end

end Cert.KernelIdeal.Hand

end
-- ==== Proof.Val1.lean ====
/-
  What region 1 leaves in its output array, at the ideal instance: the column of denominators of its two operand
  arrays.  The scratch after the j-th of a run of eight points holds, in row p, the sum over the tiles 0..j of the
  tile's row sum; the last point of the run writes it back as the block of 512 rows, and the eight runs tile the array.
-/
import proofs.«159817_j84318797955094_1_alg».proof.Proof.Reg1
import proofs.«159817_j84318797955094_1_alg».proof.Proof.SpecArr
import proofs.«159817_j84318797955094_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Val1Aux

/-! ## The body's payloads read at an index -/

/-- The zero column the first point of a run adds into. -/
theorem payZero_apply (p : Fin 512) : k1_pay1 (F := Ideal) (ix2 p (0 : Fin 1)) = 0 := by
  unfold k1_pay1
  rw [shapeCast_self]
  exact Ideal.ofBits_zero_f32

/-! The operand indices of the tile's product, coordinate by coordinate: the left operand is read at (row, k), the
    right one, already transposed, at (k, column). -/

theorem lhsIdx_row (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhsIdx_contr (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhsIdx_contr (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhsIdx_col (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- One entry of the tile of inner products: row p of the first block against row c of the second (the format change is
    the identity on extended reals, the transposed second block is read back at (c, k), and the accumulator is zero). -/
theorem tile_apply (xa xb : Vec Ideal S512x256 .f32) (p c : Fin 512) :
    matmul (F := Ideal) dot_S512x256_S256x512_S512x512_1_0_0_1_n_n none
        (truncf FTy.bf16 xa bitsLt_bf16_f32)
        (transpose S256x512 [1, 0] (truncf FTy.bf16 xb bitsLt_bf16_f32) transposes_S512x256_p1_0_S256x512)
        (constant S512x512 FTy.f32 0x00000000#32) (ix2 p c)
      = ∑ k : Fin 256, xa (ix2 p k) * xb (ix2 c k) := by
  refine (Ideal.matmul_constant_zero_apply dot_S512x256_S256x512_S512x512_1_0_0_1_n_n none _ _ (ix2 p c)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p c) ((contrEquiv1 dot_S512x256_S256x512_S512x512_1_0_0_1_n_n 256 rfl rfl).symm k) = ix2 p k := funext fun a => Fin.ext (by
    match a with
    | ⟨0, _⟩ => exact lhsIdx_row _ _
    | ⟨1, _⟩ => exact (lhsIdx_contr _ _).trans hk)
  have er : dot_S512x256_S256x512_S512x512_1_0_0_1_n_n.rhsIdx (ix2 p c) ((contrEquiv1 dot_S512x256_S256x512_S512x512_1_0_0_1_n_n 256 rfl rfl).symm k) = ix2 k c := funext fun a => Fin.ext (by
    match a with
    | ⟨0, _⟩ => exact (rhsIdx_contr _ _).trans hk
    | ⟨1, _⟩ => exact rhsIdx_col _ _)
  rw [el, er]
  refine congrArg (xa (ix2 p k) * ·) ?_
  exact transpose_apply [1, 0] _ transposes_S512x256_p1_0_S256x512 (ix2 k c) (ix2 c k) (fun b => match b with
    | ⟨0, _⟩ => rfl
    | ⟨1, _⟩ => rfl)

/-- The body's update of the scratch, read in row p: the scratch's entry plus the row sum of the exponentials of the
    doubled tile. -/
theorem payStep_apply (xa xb : Vec Ideal S512x256 .f32) (s : Vec Ideal S512x1 .f32) (p : Fin 512) :
    k1_pay2 (F := Ideal) xa xb s (ix2 p (0 : Fin 1))
      = s (ix2 p 0) + ∑ c : Fin 512, Ideal.exp ((∑ k : Fin 256, xa (ix2 p k) * xb (ix2 c k)) * Cert.Spec.two) := by
  unfold k1_pay2
  rw [shapeCast_self, shapeCast_self xa, shapeCast_self xb]
  refine congrArg (s (ix2 p 0) + ·) ?_
  refine (Cert.LibColumn.shapeCast_a_a1_apply _ shapeCasts_S512_S512x1 p 0).trans ?_
  refine (Ideal.multiReduction_add_single _ _ reduces_S512x512_S512 _ _ (ix1 p)).trans ?_
  show ∑ c : Fin 512, _ = _
  refine Finset.sum_congr rfl fun c _ => ?_
  have hi : reduces_S512x512_S512.lift (ix1 p) c = ix2 p c := funext fun a => Fin.ext (by
    match a with
    | ⟨0, _⟩ => rfl
    | ⟨1, _⟩ => rfl)
  rw [hi]
  show Ideal.exp (_ * Cert.Spec.two) = _
  rw [tile_apply]

/-! ## The blocks the windows read and write -/

/-- The printed index maps, decided once over the 64 points: point t reads block t / 8 of window 0's array and block
    t % 8 of window 1's, and writes block t / 8 of the output; every second block coordinate is 0. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

section
variable (V : (c : Dev nD) → (b : Ref sig .tc) → Buf (Elt Ideal) ((c : Thread nD τ).loc b))

/-- Window 0's block at point t, read at (p, k), is its array at row 512 (t / 8) + p. -/
theorem blkA_read (c : Dev nD) (t : Fin cfg1.N) (p : Fin 512) (k : Fin 256) (r : Fin 4096)
    (hr : r.val = 512 * (t.val / 8) + p.val) : iblk1 V c 0 t (ix2 p k) = V c main_v0_0 (ix2 r k) := by
  obtain ⟨ea, eb, -, -, -, -⟩ := idx_facts t
  show V c main_v0_0 (((cfg1.win 0).blk t).view.emb (ix2 p k)) = _
  refine congrArg (V c main_v0_0) (funext fun a => Fin.ext ?_)
  match a with
  | ⟨0, _⟩ => show win1_0.index t (0 : Fin 2) * 512 + 1 * p.val = r.val; rw [ea, hr]; omega
  | ⟨1, _⟩ => show win1_0.index t (1 : Fin 2) * 256 + 1 * k.val = k.val; rw [eb]; omega

/-- Window 1's block at point t, read at (q, k), is its array at row 512 (t % 8) + q. -/
theorem blkB_read (c : Dev nD) (t : Fin cfg1.N) (q : Fin 512) (k : Fin 256) (r : Fin 4096)
    (hr : r.val = 512 * (t.val % 8) + q.val) : iblk1 V c 1 t (ix2 q k) = V c main_v0_1 (ix2 r k) := by
  obtain ⟨-, -, ec, ed, -, -⟩ := idx_facts t
  show V c main_v0_1 (((cfg1.win 1).blk t).view.emb (ix2 q k)) = _
  refine congrArg (V c main_v0_1) (funext fun a => Fin.ext ?_)
  match a with
  | ⟨0, _⟩ => show win1_1.index t (0 : Fin 2) * 512 + 1 * q.val = r.val; rw [ec, hr]; omega
  | ⟨1, _⟩ => show win1_1.index t (1 : Fin 2) * 256 + 1 * k.val = k.val; rw [ed]; omega

/-- What one point adds to row p of the scratch: the row sum of tile t % 8, for row 512 (t / 8) + p of the first array. -/
theorem point_apply (c : Dev nD) (t : Fin cfg1.N) (s : Vec Ideal S512x1 .f32) (p : Fin 512) (r : Fin 4096) (j : Fin 8)
    (hr : r.val = 512 * (t.val / 8) + p.val) (hj : j.val = t.val % 8) :
    k1_pay2 (F := Ideal) (iblk1 V c 0 t) (iblk1 V c 1 t) s (ix2 p (0 : Fin 1))
      = s (ix2 p 0) + Cert.Spec.tileSum (Cert.Spec.toMat (V c main_v0_0)) (Cert.Spec.toMat (V c main_v0_1)) r j := by
  refine (payStep_apply _ _ s p).trans ?_
  refine congrArg (s (ix2 p 0) + ·) ?_
  unfold Cert.Spec.tileSum
  refine Finset.sum_congr rfl fun q _ => ?_
  refine congrArg (fun z => Ideal.exp (z * Cert.Spec.two)) ?_
  unfold Cert.Spec.dot
  refine Finset.sum_congr rfl fun k _ => ?_
  rw [blkA_read V c t p k r hr, blkB_read V c t q k (Cert.Spec.col j q) (by simp only [Cert.Spec.col]; omega)]
  rfl

/-! ## The scratch along a run of eight points -/

/-- Tile j's contribution to a row's denominator as a function of a natural number j (zero past the eighth tile), so
    that the partial sums are sums over ranges. -/
def tileN (a b : Cert.Spec.Mat) (r : Fin 4096) (j : ℕ) : EReal :=
  if h : j < 8 then Cert.Spec.tileSum a b r ⟨j, h⟩ else 0

/-- Row p of the block of 512 rows that the run of point n works on. -/
def rowOf (n : ℕ) (hn : n < cfg1.N) (p : Fin 512) : Fin 4096 :=
  ⟨512 * (n / 8) + p.val, by have := p.isLt; have hn' : n < 64 := lt_of_lt_of_eq hn N_1; omega⟩

/-- At the first point of a run the scratch holds the first tile's row sums. -/
theorem inv_reset (c : Dev nD) (p : Fin 512) (n : ℕ) (hn : n < cfg1.N) (h : n % 8 = 0) :
    sAt1 V c n hn (ix2 p (0 : Fin 1))
      = ∑ j ∈ Finset.range (n % 8 + 1), tileN (Cert.Spec.toMat (V c main_v0_0)) (Cert.Spec.toMat (V c main_v0_1)) (rowOf n hn p) j := by
  rw [h, Finset.sum_range_one]
  refine (congrFun (sAt1_reset V c ⟨n, hn⟩ h) _).trans ?_
  refine (point_apply V c ⟨n, hn⟩ _ p (rowOf n hn p) ⟨0, by decide⟩ rfl h.symm).trans ?_
  rw [payZero_apply, zero_add]
  unfold tileN
  rw [dif_pos (by decide)]

/-- At a later point of a run the next tile's row sums are added. -/
theorem inv_step (c : Dev nD) (p : Fin 512) (n : ℕ) (hn : n + 1 < cfg1.N) (h : ¬ (n + 1) % 8 = 0)
    (ih : sAt1 V c n (Nat.lt_of_succ_lt hn) (ix2 p (0 : Fin 1))
      = ∑ j ∈ Finset.range (n % 8 + 1), tileN (Cert.Spec.toMat (V c main_v0_0)) (Cert.Spec.toMat (V c main_v0_1)) (rowOf n (Nat.lt_of_succ_lt hn) p) j) :
    sAt1 V c (n + 1) hn (ix2 p (0 : Fin 1))
      = ∑ j ∈ Finset.range ((n + 1) % 8 + 1), tileN (Cert.Spec.toMat (V c main_v0_0)) (Cert.Spec.toMat (V c main_v0_1)) (rowOf (n + 1) hn p) j := by
  have hm : (n + 1) % 8 = n % 8 + 1 := by omega
  have hlt : (n + 1) % 8 < 8 := Nat.mod_lt _ (by decide)
  have hrow : rowOf (n + 1) hn p = rowOf n (Nat.lt_of_succ_lt hn) p := Fin.ext (by
    show 512 * ((n + 1) / 8) + p.val = 512 * (n / 8) + p.val
    omega)
  refine (congrFun (sAt1_step V c ⟨n + 1, hn⟩ h) _).trans ?_
  refine (point_apply V c ⟨n + 1, hn⟩ _ p (rowOf (n + 1) hn p) ⟨(n + 1) % 8, hlt⟩ rfl rfl).trans ?_
  rw [Finset.sum_range_succ _ ((n + 1) % 8)]
  refine congrArg₂ (· + ·) ?_ ?_
  · rw [hm, hrow]
    exact ih
  · unfold tileN
    rw [dif_pos hlt]

/-- The invariant: after point n the scratch holds, in row p, the row sums of the tiles 0 … n % 8 added up. -/
theorem inv (c : Dev nD) (p : Fin 512) : ∀ (n : ℕ) (hn : n < cfg1.N),
    sAt1 V c n hn (ix2 p (0 : Fin 1))
      = ∑ j ∈ Finset.range (n % 8 + 1), tileN (Cert.Spec.toMat (V c main_v0_0)) (Cert.Spec.toMat (V c main_v0_1)) (rowOf n hn p) j
  | 0, hn => inv_reset V c p 0 hn rfl
  | n + 1, hn => by
    by_cases h : (n + 1) % 8 = 0
    · exact inv_reset V c p (n + 1) hn h
    · exact inv_step V c p n hn h (inv c p n (Nat.lt_of_succ_lt hn))

/-! ## What a run's last point writes back, and the array after the region -/

/-- After the last point of a run the scratch holds the block of denominators, read where the output's block sits. -/
theorem flushed_at (c : Dev nD) (t : Fin cfg1.N) (ht : t.val % 8 = 7) (y : S512x1.Idx) :
    sAt1 V c t.val t.isLt y
      = Cert.Spec.denomArr (V c main_v0_0) (V c main_v0_1) (((cfg1.win 2).blk t).view.emb y) := by
  obtain ⟨p, u, rfl⟩ : ∃ (p : Fin 512) (u : Fin 1), y = ix2 p u := ⟨y 0, y 1, eq_ix2 y⟩
  obtain rfl : u = 0 := Subsingleton.elim _ _
  obtain ⟨-, -, -, -, ee, ef⟩ := idx_facts t
  have he : ((cfg1.win 2).blk t).view.emb (ix2 p (0 : Fin 1)) = ix2 (rowOf t.val t.isLt p) (0 : Fin 1) :=
    funext fun a => Fin.ext (by
      match a with
      | ⟨0, _⟩ => show win1_2.index t (0 : Fin 2) * 512 + 1 * p.val = 512 * (t.val / 8) + p.val; rw [ee]; omega
      | ⟨1, _⟩ => show win1_2.index t (1 : Fin 2) * 1 + 1 * 0 = 0; rw [ef])
  rw [he, Cert.Spec.denomArr_apply, inv V c p t.val t.isLt, ht]
  unfold Cert.Spec.denomK
  rw [← Fin.sum_univ_eq_sum_range]
  exact Finset.sum_congr rfl fun j _ => dif_pos j.isLt

/-- What a run's last point writes back is its block of the column of denominators. -/
theorem flushed_eq (c : Dev nD) (t : Fin cfg1.N) (ht : t.val % 8 = 7) :
    (dat1 (F := Ideal) V c).flushed 2 t
      = ((cfg1.win 2).blk t).view.read (Elt Ideal) (Cert.Spec.denomArr (V c main_v0_0) (V c main_v0_1)) := by
  show (cfg1.win 2).cut (grid1.coords t) ((dat1 (F := Ideal) V c).after 2 t) = _
  rw [after1_2]
  funext y
  exact flushed_at V c t ht y

end

/-- An index of the output array is in point t's block iff each coordinate is in the block's range on its axis. -/
theorem mem_blk (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1).slice (win1_2.rect t)).set ↔ _
  rw [View.set_slice_whole, Rect.mem_set_unit]
  exact Iff.rfl

/-- Row r of the output array lies in the block the last point of run r / 512 writes back. -/
theorem cover (i : S4096x1.Idx) :
    ∃ t : Fin cfg1.N, (cfg1.win 2).flush t = true ∧ i ∈ ((cfg1.win 2).blk t).view.set := by
  have hia : (i 0).val < 4096 := (i 0).isLt
  have hib : (i 1).val < 1 := (i 1).isLt
  have hN : 8 * ((i 0).val / 512) + 7 < cfg1.N := by rw [show cfg1.N = 64 from N_1]; omega
  refine ⟨⟨8 * ((i 0).val / 512) + 7, hN⟩, (flush1_2 _).mpr (by show (8 * ((i 0).val / 512) + 7) % 8 = 7; omega), ?_⟩
  rw [mem_blk]
  obtain ⟨-, -, -, -, ee, ef⟩ := idx_facts ⟨8 * ((i 0).val / 512) + 7, hN⟩
  have ee' : win1_2.index ⟨8 * ((i 0).val / 512) + 7, hN⟩ (0 : Fin 2) = (i 0).val / 512 := by
    rw [ee]; show (8 * ((i 0).val / 512) + 7) / 8 = (i 0).val / 512; omega
  intro a
  match a with
  | ⟨0, _⟩ =>
    show win1_2.index ⟨8 * ((i 0).val / 512) + 7, hN⟩ (0 : Fin 2) * 512 ≤ (i 0).val ∧ (i 0).val < win1_2.index ⟨8 * ((i 0).val / 512) + 7, hN⟩ (0 : Fin 2) * 512 + 512
    rw [ee']; omega
  | ⟨1, _⟩ =>
    show win1_2.index ⟨8 * ((i 0).val / 512) + 7, hN⟩ (1 : Fin 2) * 1 ≤ (i 1).val ∧ (i 1).val < win1_2.index ⟨8 * ((i 0).val / 512) + 7, hN⟩ (1 : Fin 2) * 1 + 1
    rw [ef]; omega

end Val1Aux

section
variable (V : (c : Dev nD) → (b : Ref sig .tc) → Buf (Elt Ideal) ((c : Thread nD τ).loc b))

/-- Output window 2's array after the region: the denominators of the operand arrays. -/
theorem final1_2 (c : Dev nD) : (dat1 (F := Ideal) V c).arrAt 2 cfg1.N = Cert.Spec.denomArr (V c main_v0_0) (V c main_v0_1) :=
  (dat1 (F := Ideal) V c).arrAt_eq_of_cover 2 _ (fun t ht => Val1Aux.flushed_eq V c t ((flush1_2 t).mp ht)) Val1Aux.cover

end

end Cert.KernelIdeal.Hand

end
-- ==== Proof.Val2.lean ====
/-
  What region 2 leaves in its output array, at the ideal instance: the column of denominators of its two operand
  arrays.  The scratch after the j-th of a run of eight points holds, in row p, the sum over the tiles 0..j of the
  tile's row sum; the last point of the run writes it back as the block of 512 rows, and the eight runs tile the array.
-/
import proofs.«159817_j84318797955094_1_alg».proof.Proof.Reg2
import proofs.«159817_j84318797955094_1_alg».proof.Proof.SpecArr
import proofs.«159817_j84318797955094_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Val2Aux

/-! ## The body's payloads read at an index -/

/-- The zero column the first point of a run adds into. -/
theorem payZero_apply (p : Fin 512) : k2_pay1 (F := Ideal) (ix2 p (0 : Fin 1)) = 0 := by
  unfold k2_pay1
  rw [shapeCast_self]
  exact Ideal.ofBits_zero_f32

/-! The operand indices of the tile's product, coordinate by coordinate: the left operand is read at (row, k), the
    right one, already transposed, at (k, column). -/

theorem lhsIdx_row (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhsIdx_contr (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhsIdx_contr (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhsIdx_col (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- One entry of the tile of inner products: row p of the first block against row c of the second (the format change is
    the identity on extended reals, the transposed second block is read back at (c, k), and the accumulator is zero). -/
theorem tile_apply (xa xb : Vec Ideal S512x256 .f32) (p c : Fin 512) :
    matmul (F := Ideal) dot_S512x256_S256x512_S512x512_1_0_0_1_n_n none
        (truncf FTy.bf16 xa bitsLt_bf16_f32)
        (transpose S256x512 [1, 0] (truncf FTy.bf16 xb bitsLt_bf16_f32) transposes_S512x256_p1_0_S256x512)
        (constant S512x512 FTy.f32 0x00000000#32) (ix2 p c)
      = ∑ k : Fin 256, xa (ix2 p k) * xb (ix2 c k) := by
  refine (Ideal.matmul_constant_zero_apply dot_S512x256_S256x512_S512x512_1_0_0_1_n_n none _ _ (ix2 p c)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p c) ((contrEquiv1 dot_S512x256_S256x512_S512x512_1_0_0_1_n_n 256 rfl rfl).symm k) = ix2 p k := funext fun a => Fin.ext (by
    match a with
    | ⟨0, _⟩ => exact lhsIdx_row _ _
    | ⟨1, _⟩ => exact (lhsIdx_contr _ _).trans hk)
  have er : dot_S512x256_S256x512_S512x512_1_0_0_1_n_n.rhsIdx (ix2 p c) ((contrEquiv1 dot_S512x256_S256x512_S512x512_1_0_0_1_n_n 256 rfl rfl).symm k) = ix2 k c := funext fun a => Fin.ext (by
    match a with
    | ⟨0, _⟩ => exact (rhsIdx_contr _ _).trans hk
    | ⟨1, _⟩ => exact rhsIdx_col _ _)
  rw [el, er]
  refine congrArg (xa (ix2 p k) * ·) ?_
  exact transpose_apply [1, 0] _ transposes_S512x256_p1_0_S256x512 (ix2 k c) (ix2 c k) (fun b => match b with
    | ⟨0, _⟩ => rfl
    | ⟨1, _⟩ => rfl)

/-- The body's update of the scratch, read in row p: the scratch's entry plus the row sum of the exponentials of the
    doubled tile. -/
theorem payStep_apply (xa xb : Vec Ideal S512x256 .f32) (s : Vec Ideal S512x1 .f32) (p : Fin 512) :
    k2_pay2 (F := Ideal) xa xb s (ix2 p (0 : Fin 1))
      = s (ix2 p 0) + ∑ c : Fin 512, Ideal.exp ((∑ k : Fin 256, xa (ix2 p k) * xb (ix2 c k)) * Cert.Spec.two) := by
  unfold k2_pay2
  rw [shapeCast_self, shapeCast_self xa, shapeCast_self xb]
  refine congrArg (s (ix2 p 0) + ·) ?_
  refine (Cert.LibColumn.shapeCast_a_a1_apply _ shapeCasts_S512_S512x1 p 0).trans ?_
  refine (Ideal.multiReduction_add_single _ _ reduces_S512x512_S512 _ _ (ix1 p)).trans ?_
  show ∑ c : Fin 512, _ = _
  refine Finset.sum_congr rfl fun c _ => ?_
  have hi : reduces_S512x512_S512.lift (ix1 p) c = ix2 p c := funext fun a => Fin.ext (by
    match a with
    | ⟨0, _⟩ => rfl
    | ⟨1, _⟩ => rfl)
  rw [hi]
  show Ideal.exp (_ * Cert.Spec.two) = _
  rw [tile_apply]

/-! ## The blocks the windows read and write -/

/-- The printed index maps, decided once over the 64 points: point t reads block t / 8 of window 0's array and block
    t % 8 of window 1's, and writes block t / 8 of the output; every second block coordinate is 0. -/
theorem idx_facts : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

section
variable (V : (c : Dev nD) → (b : Ref sig .tc) → Buf (Elt Ideal) ((c : Thread nD τ).loc b))

/-- Window 0's block at point t, read at (p, k), is its array at row 512 (t / 8) + p. -/
theorem blkA_read (c : Dev nD) (t : Fin cfg2.N) (p : Fin 512) (k : Fin 256) (r : Fin 4096)
    (hr : r.val = 512 * (t.val / 8) + p.val) : iblk2 V c 0 t (ix2 p k) = V c main_v0_1 (ix2 r k) := by
  obtain ⟨ea, eb, -, -, -, -⟩ := idx_facts t
  show V c main_v0_1 (((cfg2.win 0).blk t).view.emb (ix2 p k)) = _
  refine congrArg (V c main_v0_1) (funext fun a => Fin.ext ?_)
  match a with
  | ⟨0, _⟩ => show win2_0.index t (0 : Fin 2) * 512 + 1 * p.val = r.val; rw [ea, hr]; omega
  | ⟨1, _⟩ => show win2_0.index t (1 : Fin 2) * 256 + 1 * k.val = k.val; rw [eb]; omega

/-- Window 1's block at point t, read at (q, k), is its array at row 512 (t % 8) + q. -/
theorem blkB_read (c : Dev nD) (t : Fin cfg2.N) (q : Fin 512) (k : Fin 256) (r : Fin 4096)
    (hr : r.val = 512 * (t.val % 8) + q.val) : iblk2 V c 1 t (ix2 q k) = V c main_v0_0 (ix2 r k) := by
  obtain ⟨-, -, ec, ed, -, -⟩ := idx_facts t
  show V c main_v0_0 (((cfg2.win 1).blk t).view.emb (ix2 q k)) = _
  refine congrArg (V c main_v0_0) (funext fun a => Fin.ext ?_)
  match a with
  | ⟨0, _⟩ => show win2_1.index t (0 : Fin 2) * 512 + 1 * q.val = r.val; rw [ec, hr]; omega
  | ⟨1, _⟩ => show win2_1.index t (1 : Fin 2) * 256 + 1 * k.val = k.val; rw [ed]; omega

/-- What one point adds to row p of the scratch: the row sum of tile t % 8, for row 512 (t / 8) + p of the first array. -/
theorem point_apply (c : Dev nD) (t : Fin cfg2.N) (s : Vec Ideal S512x1 .f32) (p : Fin 512) (r : Fin 4096) (j : Fin 8)
    (hr : r.val = 512 * (t.val / 8) + p.val) (hj : j.val = t.val % 8) :
    k2_pay2 (F := Ideal) (iblk2 V c 0 t) (iblk2 V c 1 t) s (ix2 p (0 : Fin 1))
      = s (ix2 p 0) + Cert.Spec.tileSum (Cert.Spec.toMat (V c main_v0_1)) (Cert.Spec.toMat (V c main_v0_0)) r j := by
  refine (payStep_apply _ _ s p).trans ?_
  refine congrArg (s (ix2 p 0) + ·) ?_
  unfold Cert.Spec.tileSum
  refine Finset.sum_congr rfl fun q _ => ?_
  refine congrArg (fun z => Ideal.exp (z * Cert.Spec.two)) ?_
  unfold Cert.Spec.dot
  refine Finset.sum_congr rfl fun k _ => ?_
  rw [blkA_read V c t p k r hr, blkB_read V c t q k (Cert.Spec.col j q) (by simp only [Cert.Spec.col]; omega)]
  rfl

/-! ## The scratch along a run of eight points -/

/-- Tile j's contribution to a row's denominator as a function of a natural number j (zero past the eighth tile), so
    that the partial sums are sums over ranges. -/
def tileN (a b : Cert.Spec.Mat) (r : Fin 4096) (j : ℕ) : EReal :=
  if h : j < 8 then Cert.Spec.tileSum a b r ⟨j, h⟩ else 0

/-- Row p of the block of 512 rows that the run of point n works on. -/
def rowOf (n : ℕ) (hn : n < cfg2.N) (p : Fin 512) : Fin 4096 :=
  ⟨512 * (n / 8) + p.val, by have := p.isLt; have hn' : n < 64 := lt_of_lt_of_eq hn N_2; omega⟩

/-- At the first point of a run the scratch holds the first tile's row sums. -/
theorem inv_reset (c : Dev nD) (p : Fin 512) (n : ℕ) (hn : n < cfg2.N) (h : n % 8 = 0) :
    sAt2 V c n hn (ix2 p (0 : Fin 1))
      = ∑ j ∈ Finset.range (n % 8 + 1), tileN (Cert.Spec.toMat (V c main_v0_1)) (Cert.Spec.toMat (V c main_v0_0)) (rowOf n hn p) j := by
  rw [h, Finset.sum_range_one]
  refine (congrFun (sAt2_reset V c ⟨n, hn⟩ h) _).trans ?_
  refine (point_apply V c ⟨n, hn⟩ _ p (rowOf n hn p) ⟨0, by decide⟩ rfl h.symm).trans ?_
  rw [payZero_apply, zero_add]
  unfold tileN
  rw [dif_pos (by decide)]

/-- At a later point of a run the next tile's row sums are added. -/
theorem inv_step (c : Dev nD) (p : Fin 512) (n : ℕ) (hn : n + 1 < cfg2.N) (h : ¬ (n + 1) % 8 = 0)
    (ih : sAt2 V c n (Nat.lt_of_succ_lt hn) (ix2 p (0 : Fin 1))
      = ∑ j ∈ Finset.range (n % 8 + 1), tileN (Cert.Spec.toMat (V c main_v0_1)) (Cert.Spec.toMat (V c main_v0_0)) (rowOf n (Nat.lt_of_succ_lt hn) p) j) :
    sAt2 V c (n + 1) hn (ix2 p (0 : Fin 1))
      = ∑ j ∈ Finset.range ((n + 1) % 8 + 1), tileN (Cert.Spec.toMat (V c main_v0_1)) (Cert.Spec.toMat (V c main_v0_0)) (rowOf (n + 1) hn p) j := by
  have hm : (n + 1) % 8 = n % 8 + 1 := by omega
  have hlt : (n + 1) % 8 < 8 := Nat.mod_lt _ (by decide)
  have hrow : rowOf (n + 1) hn p = rowOf n (Nat.lt_of_succ_lt hn) p := Fin.ext (by
    show 512 * ((n + 1) / 8) + p.val = 512 * (n / 8) + p.val
    omega)
  refine (congrFun (sAt2_step V c ⟨n + 1, hn⟩ h) _).trans ?_
  refine (point_apply V c ⟨n + 1, hn⟩ _ p (rowOf (n + 1) hn p) ⟨(n + 1) % 8, hlt⟩ rfl rfl).trans ?_
  rw [Finset.sum_range_succ _ ((n + 1) % 8)]
  refine congrArg₂ (· + ·) ?_ ?_
  · rw [hm, hrow]
    exact ih
  · unfold tileN
    rw [dif_pos hlt]

/-- The invariant: after point n the scratch holds, in row p, the row sums of the tiles 0 … n % 8 added up. -/
theorem inv (c : Dev nD) (p : Fin 512) : ∀ (n : ℕ) (hn : n < cfg2.N),
    sAt2 V c n hn (ix2 p (0 : Fin 1))
      = ∑ j ∈ Finset.range (n % 8 + 1), tileN (Cert.Spec.toMat (V c main_v0_1)) (Cert.Spec.toMat (V c main_v0_0)) (rowOf n hn p) j
  | 0, hn => inv_reset V c p 0 hn rfl
  | n + 1, hn => by
    by_cases h : (n + 1) % 8 = 0
    · exact inv_reset V c p (n + 1) hn h
    · exact inv_step V c p n hn h (inv c p n (Nat.lt_of_succ_lt hn))

/-! ## What a run's last point writes back, and the array after the region -/

/-- After the last point of a run the scratch holds the block of denominators, read where the output's block sits. -/
theorem flushed_at (c : Dev nD) (t : Fin cfg2.N) (ht : t.val % 8 = 7) (y : S512x1.Idx) :
    sAt2 V c t.val t.isLt y
      = Cert.Spec.denomArr (V c main_v0_1) (V c main_v0_0) (((cfg2.win 2).blk t).view.emb y) := by
  obtain ⟨p, u, rfl⟩ : ∃ (p : Fin 512) (u : Fin 1), y = ix2 p u := ⟨y 0, y 1, eq_ix2 y⟩
  obtain rfl : u = 0 := Subsingleton.elim _ _
  obtain ⟨-, -, -, -, ee, ef⟩ := idx_facts t
  have he : ((cfg2.win 2).blk t).view.emb (ix2 p (0 : Fin 1)) = ix2 (rowOf t.val t.isLt p) (0 : Fin 1) :=
    funext fun a => Fin.ext (by
      match a with
      | ⟨0, _⟩ => show win2_2.index t (0 : Fin 2) * 512 + 1 * p.val = 512 * (t.val / 8) + p.val; rw [ee]; omega
      | ⟨1, _⟩ => show win2_2.index t (1 : Fin 2) * 1 + 1 * 0 = 0; rw [ef])
  rw [he, Cert.Spec.denomArr_apply, inv V c p t.val t.isLt, ht]
  unfold Cert.Spec.denomK
  rw [← Fin.sum_univ_eq_sum_range]
  exact Finset.sum_congr rfl fun j _ => dif_pos j.isLt

/-- What a run's last point writes back is its block of the column of denominators. -/
theorem flushed_eq (c : Dev nD) (t : Fin cfg2.N) (ht : t.val % 8 = 7) :
    (dat2 (F := Ideal) V c).flushed 2 t
      = ((cfg2.win 2).blk t).view.read (Elt Ideal) (Cert.Spec.denomArr (V c main_v0_1) (V c main_v0_0)) := by
  show (cfg2.win 2).cut (grid2.coords t) ((dat2 (F := Ideal) V c).after 2 t) = _
  rw [after2_2]
  funext y
  exact flushed_at V c t ht y

end

/-- An index of the output array is in point t's block iff each coordinate is in the block's range on its axis. -/
theorem mem_blk (t : Fin cfg2.N) (i : S4096x1.Idx) :
    i ∈ ((cfg2.win 2).blk t).view.set ↔ ∀ a : Fin 2, win2_2.index t a * S512x1.size a ≤ (i a).val ∧ (i a).val < win2_2.index t a * S512x1.size a + S512x1.size a := by
  show i ∈ ((View.whole main_v3).slice (win2_2.rect t)).set ↔ _
  rw [View.set_slice_whole, Rect.mem_set_unit]
  exact Iff.rfl

/-- Row r of the output array lies in the block the last point of run r / 512 writes back. -/
theorem cover (i : S4096x1.Idx) :
    ∃ t : Fin cfg2.N, (cfg2.win 2).flush t = true ∧ i ∈ ((cfg2.win 2).blk t).view.set := by
  have hia : (i 0).val < 4096 := (i 0).isLt
  have hib : (i 1).val < 1 := (i 1).isLt
  have hN : 8 * ((i 0).val / 512) + 7 < cfg2.N := by rw [show cfg2.N = 64 from N_2]; omega
  refine ⟨⟨8 * ((i 0).val / 512) + 7, hN⟩, (flush2_2 _).mpr (by show (8 * ((i 0).val / 512) + 7) % 8 = 7; omega), ?_⟩
  rw [mem_blk]
  obtain ⟨-, -, -, -, ee, ef⟩ := idx_facts ⟨8 * ((i 0).val / 512) + 7, hN⟩
  have ee' : win2_2.index ⟨8 * ((i 0).val / 512) + 7, hN⟩ (0 : Fin 2) = (i 0).val / 512 := by
    rw [ee]; show (8 * ((i 0).val / 512) + 7) / 8 = (i 0).val / 512; omega
  intro a
  match a with
  | ⟨0, _⟩ =>
    show win2_2.index ⟨8 * ((i 0).val / 512) + 7, hN⟩ (0 : Fin 2) * 512 ≤ (i 0).val ∧ (i 0).val < win2_2.index ⟨8 * ((i 0).val / 512) + 7, hN⟩ (0 : Fin 2) * 512 + 512
    rw [ee']; omega
  | ⟨1, _⟩ =>
    show win2_2.index ⟨8 * ((i 0).val / 512) + 7, hN⟩ (1 : Fin 2) * 1 ≤ (i 1).val ∧ (i 1).val < win2_2.index ⟨8 * ((i 0).val / 512) + 7, hN⟩ (1 : Fin 2) * 1 + 1
    rw [ef]; omega

end Val2Aux

section
variable (V : (c : Dev nD) → (b : Ref sig .tc) → Buf (Elt Ideal) ((c : Thread nD τ).loc b))

/-- Output window 2's array after the region: the denominators of the operand arrays. -/
theorem final2_2 (c : Dev nD) : (dat2 (F := Ideal) V c).arrAt 2 cfg2.N = Cert.Spec.denomArr (V c main_v0_1) (V c main_v0_0) :=
  (dat2 (F := Ideal) V c).arrAt_eq_of_cover 2 _ (fun t ht => Val2Aux.flushed_eq V c t ((flush2_2 t).mp ht)) Val2Aux.cover

end

end Cert.KernelIdeal.Hand

end
-- ==== Proof.KernelValue.lean ====
/-
  The kernel's result at the ideal instance: the scalar the last host operation writes is the kernel's form of the
  loss of the two argument arrays.  The host operations after region 2 compute, from the two normalized arrays and the
  two columns of denominators, the inner products of matching rows, the numerators, the two vectors of losses, their
  sums and the mean; the arrays are what the three regions left, read back through the boundary contents.

  First the host operations are read over ANY four arrays (`KVAux.tail_spec`): each operation at an index is the ideal
  instance's operation on the elements, a sum along the lanes from zero is the inner product of two rows, a sum of a
  vector from zero is the sum over the numbers below its length, and a one-column array read as a vector keeps its rows.
  Then each buffer the operations read is walked back through the boundaries to what a region left in it; with the
  regions' arrays in place the expression is the kernel's form of the loss by definition.
-/
import proofs.«159817_j84318797955094_1_alg».proof.Proof.Run
import proofs.«159817_j84318797955094_1_alg».proof.Proof.Val0
import proofs.«159817_j84318797955094_1_alg».proof.Proof.Val1
import proofs.«159817_j84318797955094_1_alg».proof.Proof.Val2
import Idealize.ShloMosaic.Lib.StableHlo.Run
import proofs.«159817_j84318797955094_1_alg».proof.Proof.SpecArr
import proofs.«159817_j84318797955094_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace KVAux

open scoped BigOperators
open Cert.Spec

/-- The lane reduction's shape fact in the form that names the inserted index. -/
theorem red1 : S4096x256.Reduces [1] S4096 := by decide

/-- Summing along the 256 lanes inserts lane `k` into row `r`. -/
theorem lift1 (r : Fin 4096) (k : Fin 256) : red1.lift (ix1 r) k = ix2 r k := by
  funext a
  apply Fin.ext
  match a with
  | ⟨0, _⟩ => rfl
  | ⟨1, _⟩ => rfl

/-- The indices of a length-`n` vector are the numbers below `n`. -/
def vecIdx (n : ℕ) : Fin n ≃ (⟨1, ![n]⟩ : Shape).Idx where
  toFun := ix1
  invFun j := j 0
  left_inv _ := rfl
  right_inv j := (eq_ix1 j).symm

/-- A sum over a vector's indices is the sum over the numbers below its length. -/
theorem sum_vecIdx {n : ℕ} (f : (⟨1, ![n]⟩ : Shape).Idx → EReal) : ∑ i, f i = ∑ r : Fin n, f (ix1 r) :=
  (Fintype.sum_equiv (vecIdx n) _ _ fun _ => rfl).symm

/-- A column `[a, 1]` cast to the vector `[a]` reads, at `p`, the column's entry in row `p`: row-major position
    `p · 1 + 0` is position `p`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- Row `r` of the product array summed along the lanes, from zero: the inner product of the matching rows. -/
theorem dotVec_apply (A B : FVec Ideal S4096x256 .f32) (r : Fin 4096) :
    Host.reduceAdd (mulf A B) (constant (F := Ideal) S_ .f32 0x00000000#32) reducesTo_S4096x256_S4096_d1 h_S_ (ix1 r)
      = dot (toMat A) (toMat B) r r := by
  rw [hostReduceAdd_apply, Ideal.hostReduceAdd_single _ red1, constant_apply, Ideal.ofBits_zero_f32, zero_add]
  show ∑ k : Fin 256, mulf A B (red1.lift (ix1 r) k) = ∑ k : Fin 256, toMat A r k * toMat B r k
  refine Finset.sum_congr rfl fun k _ => ?_
  rw [lift1]
  rfl

/-- The vector of numerators: exp of the matching rows' inner product over the temperature. -/
abbrev numer (A B : FVec Ideal S4096x256 .f32) : FVec Ideal S4096 .f32 :=
  Host.exp (Host.divf (Host.reduceAdd (mulf A B) (constant S_ .f32 0x00000000#32) reducesTo_S4096x256_S4096_d1 h_S_)
    (broadcastInDim S4096 ![] bcast_S_S4096 (constant S_ .f32 0x3F000000#32)))

theorem numer_apply (A B : FVec Ideal S4096x256 .f32) (r : Fin 4096) :
    numer A B (ix1 r) = nom (toMat A) (toMat B) r := by
  show Ideal.exp (Ideal.div
      (Host.reduceAdd (mulf A B) (constant (F := Ideal) S_ .f32 0x00000000#32) reducesTo_S4096x256_S4096_d1 h_S_ (ix1 r))
      (broadcastInDim S4096 ![] bcast_S_S4096 (constant (F := Ideal) S_ .f32 0x3F000000#32) (ix1 r))) = _
  rw [dotVec_apply, broadcastInDim_scalar_apply]
  rfl

/-- The sum, from zero, of the losses -log (numerator / denominator) over the 4096 rows. -/
theorem lossSum (E d : FVec Ideal S4096 .f32) (n dd : Fin 4096 → EReal)
    (hE : ∀ r, E (ix1 r) = n r) (hd : ∀ r, d (ix1 r) = dd r) (j : S_.Idx) :
    Host.reduceAdd (Host.negf (Host.log (Host.divf E d))) (constant (F := Ideal) S_ .f32 0x00000000#32) reducesTo_S4096_S_d0 h_S_ j
      = ∑ r : Fin 4096, lossOf (n r) (dd r) := by
  rw [hostReduceAdd_apply, Ideal.hostReduceAdd_total _ (fun b => b.elim0), constant_apply, Ideal.ofBits_zero_f32, zero_add,
    sum_vecIdx]
  refine Finset.sum_congr rfl fun r _ => ?_
  show -(Ideal.log (Ideal.div (E (ix1 r)) (d (ix1 r)))) = _
  rw [hE, hd]
  rfl

/-- The host operations after the last region, over any four arrays: the mean over 8192 of the two sums of losses. -/
theorem tail_spec (A B : FVec Ideal S4096x256 .f32) (d1 d2 : FVec Ideal S4096 .f32) (D1 D2 : ColArr)
    (h1 : ∀ r : Fin 4096, d1 (ix1 r) = D1 (ix2 r (0 : Fin 1))) (h2 : ∀ r : Fin 4096, d2 (ix1 r) = D2 (ix2 r (0 : Fin 1))) :
    Host.divf
      (addf
        (Host.reduceAdd (Host.negf (Host.log (Host.divf (numer A B) d1))) (constant S_ .f32 0x00000000#32) reducesTo_S4096_S_d0 h_S_)
        (Host.reduceAdd (Host.negf (Host.log (Host.divf (numer A B) d2))) (constant S_ .f32 0x00000000#32) reducesTo_S4096_S_d0 h_S_))
      (constant (F := Ideal) S_ .f32 0x46000000#32)
      = tailOf A B D1 D2 := by
  funext j
  show Ideal.div
      (Host.reduceAdd (Host.negf (Host.log (Host.divf (numer A B) d1))) (constant (F := Ideal) S_ .f32 0x00000000#32) reducesTo_S4096_S_d0 h_S_ j
        + Host.reduceAdd (Host.negf (Host.log (Host.divf (numer A B) d2))) (constant (F := Ideal) S_ .f32 0x00000000#32) reducesTo_S4096_S_d0 h_S_ j)
      (Ideal.ofBits .f32 0x46000000#32) = _
  rw [lossSum _ _ _ _ (numer_apply A B) h1, lossSum _ _ _ _ (numer_apply A B) h2]
  rfl

end KVAux

section
variable (m : (ℓ : Loc nD τ sig) → Buf (Elt Ideal) ℓ)

namespace KVAux

open Cert.Spec

/-! ### The buffers the last host operations read, walked back through the boundaries -/

/-- Region 0 leaves the row-normalized first argument in its first output array. -/
theorem W1_v00 (c : Dev nD) :
    W1 (F := Ideal) m c (Proc.devRef .tc main_v0_0) = nrmArr (m ((c : Thread nD τ).loc main_arg0)) :=
  (W1_arr m c 2).trans (final0_2 (V0 m) c)

/-- Region 0 leaves the row-normalized second argument in its second output array. -/
theorem W1_v01 (c : Dev nD) :
    W1 (F := Ideal) m c (Proc.devRef .tc main_v0_1) = nrmArr (m ((c : Thread nD τ).loc main_arg1)) :=
  (W1_arr m c 3).trans (final0_3 (V0 m) c)

/-- Region 1 only reads the two normalized arrays. -/
theorem W2_v00 (c : Dev nD) :
    W2 (F := Ideal) m c (Proc.devRef .tc main_v0_0) = W1 m c (Proc.devRef .tc main_v0_0) :=
  (W2_arr m c 0).trans (((dat1 (V1 m) c).arrAt_in 0 rfl _).trans (A_eq1 (V1 m) c 0))

theorem W2_v01 (c : Dev nD) :
    W2 (F := Ideal) m c (Proc.devRef .tc main_v0_1) = W1 m c (Proc.devRef .tc main_v0_1) :=
  (W2_arr m c 1).trans (((dat1 (V1 m) c).arrAt_in 1 rfl _).trans (A_eq1 (V1 m) c 1))

/-- Region 1 leaves the first view's column of denominators. -/
theorem W2_v1 (c : Dev nD) :
    W2 (F := Ideal) m c (Proc.devRef .tc main_v1)
      = denomArr (nrmArr (m ((c : Thread nD τ).loc main_arg0))) (nrmArr (m ((c : Thread nD τ).loc main_arg1))) := by
  refine (W2_arr m c 2).trans ((final1_2 (V1 m) c).trans ?_)
  show denomArr (W1 m c (Proc.devRef .tc main_v0_0)) (W1 m c (Proc.devRef .tc main_v0_1)) = _
  rw [W1_v00, W1_v01]

/-- The reshape between regions 1 and 2 writes neither normalized array. -/
theorem W3_v00 (c : Dev nD) :
    W3 (F := Ideal) m c (Proc.devRef .tc main_v0_0) = W2 m c (Proc.devRef .tc main_v0_0) := by
  show StableHlo.after hostOps2 (W2 m c) (Proc.devRef .tc main_v0_0) = _
  after_results

theorem W3_v01 (c : Dev nD) :
    W3 (F := Ideal) m c (Proc.devRef .tc main_v0_1) = W2 m c (Proc.devRef .tc main_v0_1) := by
  show StableHlo.after hostOps2 (W2 m c) (Proc.devRef .tc main_v0_1) = _
  after_results

/-- The reshape reads the column of denominators as a vector: entry `r` is the column's row `r`. -/
theorem W3_v2_apply (c : Dev nD) (r : Fin 4096) :
    W3 (F := Ideal) m c (Proc.devRef .tc main_v2) (ix1 r) = W2 m c (Proc.devRef .tc main_v1) (ix2 r (0 : Fin 1)) := by
  show StableHlo.after hostOps2 (W2 m c) (Proc.devRef .tc main_v2) (ix1 r) = _
  after_results
  exact shapeCast_a1_a_apply _ _ r

/-- Region 2 only reads the two normalized arrays, and does not touch the reshaped vector. -/
theorem W4_v00 (c : Dev nD) :
    W4 (F := Ideal) m c (Proc.devRef .tc main_v0_0) = W3 m c (Proc.devRef .tc main_v0_0) :=
  (W4_arr m c 1).trans (((dat2 (V3 m) c).arrAt_in 1 rfl _).trans (A_eq2 (V3 m) c 1))

theorem W4_v01 (c : Dev nD) :
    W4 (F := Ideal) m c (Proc.devRef .tc main_v0_1) = W3 m c (Proc.devRef .tc main_v0_1) :=
  (W4_arr m c 0).trans (((dat2 (V3 m) c).arrAt_in 0 rfl _).trans (A_eq2 (V3 m) c 0))

theorem W4_v2 (c : Dev nD) :
    W4 (F := Ideal) m c (Proc.devRef .tc main_v2) = W3 m c (Proc.devRef .tc main_v2) :=
  W4_of_ne m c main_v2 (by decide)

/-- The two normalized arrays as the last host operations find them. -/
theorem W4_v00_eq (c : Dev nD) :
    W4 (F := Ideal) m c (Proc.devRef .tc main_v0_0) = nrmArr (m ((c : Thread nD τ).loc main_arg0)) :=
  (W4_v00 m c).trans ((W3_v00 m c).trans ((W2_v00 m c).trans (W1_v00 m c)))

theorem W4_v01_eq (c : Dev nD) :
    W4 (F := Ideal) m c (Proc.devRef .tc main_v0_1) = nrmArr (m ((c : Thread nD τ).loc main_arg1)) :=
  (W4_v01 m c).trans ((W3_v01 m c).trans ((W2_v01 m c).trans (W1_v01 m c)))

/-- Region 2 leaves the second view's column of denominators. -/
theorem W4_v3 (c : Dev nD) :
    W4 (F := Ideal) m c (Proc.devRef .tc main_v3)
      = denomArr (nrmArr (m ((c : Thread nD τ).loc main_arg1))) (nrmArr (m ((c : Thread nD τ).loc main_arg0))) := by
  refine (W4_arr m c 2).trans ((final2_2 (V3 m) c).trans ?_)
  show denomArr (W3 m c (Proc.devRef .tc main_v0_1)) (W3 m c (Proc.devRef .tc main_v0_0)) = _
  rw [W3_v01, W3_v00, W2_v01, W2_v00, W1_v01, W1_v00]

end KVAux

/-- The result buffer at the end of the run. -/
theorem result_eq (c : Dev nD) :
    W5 (F := Ideal) m c (Proc.devRef .tc main_v19)
      = fun _ => Cert.Spec.kernelResult (Cert.Spec.toMat (m ((c : Thread nD τ).loc main_arg0))) (Cert.Spec.toMat (m ((c : Thread nD τ).loc main_arg1))) := by
  show StableHlo.after hostOps3 (W4 m c) (Proc.devRef .tc main_v19) = _
  after_results
  refine (KVAux.tail_spec (W4 m c (Proc.devRef .tc main_v0_0)) (W4 m c (Proc.devRef .tc main_v0_1)) _ _
    (Cert.Spec.denomArr (Cert.Spec.nrmArr (m ((c : Thread nD τ).loc main_arg0))) (Cert.Spec.nrmArr (m ((c : Thread nD τ).loc main_arg1))))
    (Cert.Spec.denomArr (Cert.Spec.nrmArr (m ((c : Thread nD τ).loc main_arg1))) (Cert.Spec.nrmArr (m ((c : Thread nD τ).loc main_arg0))))
    (fun r => ?_) (fun r => ?_)).trans ?_
  · rw [KVAux.W4_v2, KVAux.W3_v2_apply, KVAux.W2_v1]
  · refine (KVAux.shapeCast_a1_a_apply _ _ r).trans ?_
    rw [KVAux.W4_v3]
  · rw [KVAux.W4_v00_eq, KVAux.W4_v01_eq]
    exact Cert.Spec.tailOf_regions _ _

end

end Cert.KernelIdeal.Hand

end
-- ==== Proof.RefValue.lean ====
/-
  The reference's result as a function of its two arguments: its run's composed term, read one operation at a
  time down to an index, is `Spec.refResult` of the two argument arrays read by coordinates.

  The chain, stage by stage: each argument divided row by row by its clamped Euclidean norm (`nrm0`, `nrm1`); the
  two normalized matrices stacked (`reps_eq`) and multiplied with the transpose of the stack (`sim_eq`); the two
  off-diagonals at distance 4096, gathered through index arrays that hold (k, 4096 + k) and (4096 + k, k)
  (`gather2_apply`, `idxA_*`, `idxB_*`, `diagA`, `diagB`), joined into the vector of each row's similarity with its
  partner (`pos_eq`); the 0/1 mask of the cross-view blocks (`view_eq`, `mask_eq`); each row's denominator and loss
  (`denom_eq`, `loss_eq`); and the sum of the 8192 losses over 8192 (`result_eq`). Every step is an equation between
  extended reals at one index; nothing here needs the inputs to be finite.
-/
import proofs.«159817_j84318797955094_1_alg».proof.Defs
import proofs.«159817_j84318797955094_1_alg».proof.Proof.RefRun
import proofs.«159817_j84318797955094_1_alg».proof.Proof.RefRead
import proofs.«159817_j84318797955094_1_alg».proof.Proof.Gen.Pre_finite_inputs
import proofs.«159817_j84318797955094_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.StableHlo.Predicate

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP
open Cert.Spec (toMat nrm)
open scoped BigOperators

/-- An argument array of the program: 4096 × 256 extended reals. -/
abbrev Arg : Type := (⟨S4096x256, .f32⟩ : BufTy).Contents (Elt Ideal)

/-! ## A gather of single elements, and small 32-bit words -/

/-- A gather that collapses both axes of a square matrix and takes both start coordinates from a two-column index
    array reads, at result position `j`, the matrix at (row, column) = the two words of row `j` of the index array,
    each read signed and clamped into the matrix. -/
theorem gather2_apply {α : Type} {w : Nat} (x : S8192x8192.Idx → α) (idx : IVec S4096x2 w) (j : S4096.Idx) :
    Host.gather gather_S8192x8192_S4096x2_S4096_n_01_n_n_01_1_11 x idx j
      = x (ix2 (⟨min (idx (ix2 (j 0) (0 : Fin 2))).toInt.toNat 8191, by omega⟩ : Fin 8192)
              (⟨min (idx (ix2 (j 0) (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start j idx 0
        + gather_S8192x8192_S4096x2_S4096_n_01_n_n_01_1_11.batchCoord j 0
        + gather_S8192x8192_S4096x2_S4096_n_01_n_n_01_1_11.offCoord j 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap from by decide)]
    have hsi : gather_S8192x8192_S4096x2_S4096_n_01_n_n_01_1_11.siIdx j
        ⟨List.idxOf (0 : Fin 2) gather_S8192x8192_S4096x2_S4096_n_01_n_n_01_1_11.startIndexMap,
          List.idxOf_lt_length_iff.2 (by decide)⟩ = ix2 (j 0) (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start j idx 1
        + gather_S8192x8192_S4096x2_S4096_n_01_n_n_01_1_11.batchCoord j 1
        + gather_S8192x8192_S4096x2_S4096_n_01_n_n_01_1_11.offCoord j 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap from by decide)]
    have hsi : gather_S8192x8192_S4096x2_S4096_n_01_n_n_01_1_11.siIdx j
        ⟨List.idxOf (1 : Fin 2) gather_S8192x8192_S4096x2_S4096_n_01_n_n_01_1_11.startIndexMap,
          List.idxOf_lt_length_iff.2 (by decide)⟩ = ix2 (j 0) (1 : Fin 2) := by
      funext b; refine Fin.ext ?_
      match b with
      | ⟨0, _⟩ => rfl
      | ⟨1, _⟩ => rfl
    rw [hsi]
    rfl

/-- A word below 2³¹, read signed and clamped to the last row, is its value when that is a row. -/
theorem clamp_ofNat (n : ℕ) (h : n ≤ 8191) : min (BitVec.ofNat 32 n).toInt.toNat 8191 = n := by
  rw [StableHlo.Predicate.toInt_ofNat_small n (by omega)]
  simp only [Int.toNat_natCast]
  omega

/-- A small non-negative word is not below zero. -/
theorem slt_zero_ofNat (n : ℕ) (h : n < 2 ^ 31) : IntOp.cmpi .slt (BitVec.ofNat 32 n) 0#32 = 0#1 := by
  refine eq_zero_of_ne_one fun h1 => ?_
  have := (StableHlo.Predicate.slt_iff_toNat (a := BitVec.ofNat 32 n) (b := 0#32)
    (by simp only [BitVec.toNat_ofNat]; omega) (by decide)).1 h1
  simp at this

/-- Adding the word 4096 to a small word adds the values. -/
theorem addi_4096_ofNat (n : ℕ) : IntOp.addi 4096#32 (BitVec.ofNat 32 n) = BitVec.ofNat 32 (4096 + n) := by
  show BitVec.ofNat 32 4096 + BitVec.ofNat 32 n = _
  rw [← BitVec.ofNat_add]

/-- The comparison "at least 4096" of a small word, as a bit. -/
theorem sge_4096_ofNat (n : ℕ) (h : n < 2 ^ 31) :
    IntOp.cmpi .sge (BitVec.ofNat 32 n) 4096#32 = if 4096 ≤ n then 1#1 else 0#1 := by
  have key := StableHlo.Predicate.sge_iff_toNat (a := BitVec.ofNat 32 n) (b := 4096#32)
    (by simp only [BitVec.toNat_ofNat]; omega) (by decide)
  have hn : (BitVec.ofNat 32 n).toNat = n := by simp only [BitVec.toNat_ofNat]; omega
  rw [hn] at key
  split
  · next h4 => exact key.2 (by simpa using h4)
  · next h4 => exact eq_zero_of_ne_one fun h1 => h4 (by simpa using key.1 h1)

/-! ## The normalized matrices -/

/-- The first argument, each entry over its row's norm clamped below: the operations multiply, sum along the row,
    square root, maximum with the clamp, divide, read at (r, d). -/
theorem nrm0 (x0 : Arg) (r : Fin 4096) (d : Fin 256) :
    val_main_v7 (F := Ideal) x0 (ix2 r d) = nrm (toMat x0) r d := by
  rw [val_main_v7_apply, val_main_v6_apply, val_main_v5_apply, val_main_v3_apply, val_main_v2_apply,
    val_main_v1_apply, val_main_v4_apply, val_main_cst_0_apply, val_main_cst_apply]
  simp only [val_main_v0_apply, Ideal.hostDivf_def, Ideal.maximumf_def, Ideal.hostUnary_sqrt_def, Ideal.mulf_def,
    Ideal.ofBits_def, Ideal.ofBits_zero_f32, zero_add]
  unfold Cert.Spec.nrm Cert.Spec.toMat Cert.Spec.eps
  refine congrArg₂ Ideal.div rfl (congrArg₂ max (congrArg Ideal.sqrt (Finset.sum_congr rfl fun k _ => ?_)) rfl)
  have e : idx_main_v1 (idx_main_v2 (idx_main_v6 (ix2 r d))) k = ix2 r k :=
    funext fun a => Fin.ext (by match a with | ⟨0, _⟩ => rfl | ⟨1, _⟩ => rfl)
  rw [e]

/-- The second argument likewise. -/
theorem nrm1 (x1 : Arg) (r : Fin 4096) (d : Fin 256) :
    val_main_v15 (F := Ideal) x1 (ix2 r d) = nrm (toMat x1) r d := by
  rw [val_main_v15_apply, val_main_v14_apply, val_main_v13_apply, val_main_v11_apply, val_main_v10_apply,
    val_main_v9_apply, val_main_v12_apply, val_main_cst_2_apply, val_main_cst_1_apply]
  simp only [val_main_v8_apply, Ideal.hostDivf_def, Ideal.maximumf_def, Ideal.hostUnary_sqrt_def, Ideal.mulf_def,
    Ideal.ofBits_def, Ideal.ofBits_zero_f32, zero_add]
  unfold Cert.Spec.nrm Cert.Spec.toMat Cert.Spec.eps
  refine congrArg₂ Ideal.div rfl (congrArg₂ max (congrArg Ideal.sqrt (Finset.sum_congr rfl fun k _ => ?_)) rfl)
  have e : idx_main_v9 (idx_main_v10 (idx_main_v14 (ix2 r d))) k = ix2 r k :=
    funext fun a => Fin.ext (by match a with | ⟨0, _⟩ => rfl | ⟨1, _⟩ => rfl)
  rw [e]

/-! ## The stacked rows and their similarity matrix -/

/-- The two normalized matrices joined along the rows: row `r` is the first's below 4096 and the second's row
    `r - 4096` from there on. -/
theorem reps_eq (x0 x1 : Arg) (r : Fin 8192) (d : Fin 256) :
    val_main_v16 (F := Ideal) x0 x1 (ix2 r d) = Cert.Spec.reps (nrm (toMat x0)) (nrm (toMat x1)) r d := by
  unfold val_main_v16 Cert.Spec.reps
  by_cases h : r.val < 4096
  · rw [dif_pos h, concatenate_pair_apply_left (0 : Fin S8192x256.rank) _ _ concatenates_S4096x256_S4096x256_S8192x256_d0
      (ix2 r d) rfl (ix2 (⟨r.val, h⟩ : Fin 4096) d) (fun b => by match b with | ⟨0, _⟩ => rfl | ⟨1, _⟩ => rfl)]
    exact nrm0 x0 ⟨r.val, h⟩ d
  · have h2 : r.val - 4096 < 4096 := by have := r.isLt; omega
    rw [dif_neg h, concatenate_pair_apply_right (0 : Fin S8192x256.rank) _ _ concatenates_S4096x256_S4096x256_S8192x256_d0
      (ix2 r d) rfl rfl (ix2 (⟨r.val - 4096, h2⟩ : Fin 4096) d)
      (Fin.forall_fin_two.2 ⟨fun hb => absurd rfl hb, fun _ => rfl⟩)
      (by show r.val - 4096 + 4096 = r.val; omega)]
    exact nrm1 x1 ⟨r.val - 4096, h2⟩ d

/-- The product of the stacked matrix with its transpose, at (r, c): the inner product of rows `r` and `c`. -/
theorem sim_eq (x0 x1 : Arg) (r c : Fin 8192) :
    val_main_v18 (F := Ideal) x0 x1 (ix2 r c) = Cert.Spec.sim (nrm (toMat x0)) (nrm (toMat x1)) r c := by
  rw [val_main_v18_apply]
  unfold Cert.Spec.sim
  refine Finset.sum_congr rfl fun k _ => ?_
  rw [val_main_v17_apply]
  have el : lidx_main_v18 (ix2 r c) k = ix2 r k :=
    funext fun a => Fin.ext (by match a with | ⟨0, _⟩ => rfl | ⟨1, _⟩ => rfl)
  have er : idx_main_v17 (ridx_main_v18 (ix2 r c) k) = ix2 c k :=
    funext fun a => Fin.ext (by match a with | ⟨0, _⟩ => rfl | ⟨1, _⟩ => rfl)
  rw [el, er, reps_eq, reps_eq]

/-! ## The two off-diagonals -/

/-- The first gather's index array: row `k` holds (k, 4096 + k). Each column is an iota (plus the constant 4096 in
    the second), passed through "add 8192 if negative", which does nothing to a small non-negative word. -/
theorem idxA_row (k : Fin 4096) : val_main_call0_v16 (F := Ideal) (ix2 k (0 : Fin 2)) = BitVec.ofNat 32 k.val := by
  unfold val_main_call0_v16
  rw [concatenate_pair_apply_left (1 : Fin S4096x2.rank) _ _ concatenates_S4096x1_S4096x1_S4096x2_d1
    (ix2 k (0 : Fin 2)) rfl (ix2 k (0 : Fin 1)) (Fin.forall_fin_two.2 ⟨rfl, rfl⟩)]
  rw [val_main_call0_v14_apply, val_main_call0_v8_apply, val_main_call0_v5_apply, val_main_call0_v0_apply,
    val_main_call0_v4_apply, val_main_call0_c_0_apply]
  show Scalar.select (IntOp.cmpi .slt (BitVec.ofNat 32 k.val) 0#32) _ (BitVec.ofNat 32 k.val) = _
  rw [slt_zero_ofNat _ (by have := k.isLt; omega), select_zero]

theorem idxA_col (k : Fin 4096) :
    val_main_call0_v16 (F := Ideal) (ix2 k (1 : Fin 2)) = BitVec.ofNat 32 (4096 + k.val) := by
  unfold val_main_call0_v16
  rw [concatenate_pair_apply_right (1 : Fin S4096x2.rank) _ _ concatenates_S4096x1_S4096x1_S4096x2_d1
    (ix2 k (1 : Fin 2)) rfl rfl (ix2 k (0 : Fin 1)) (Fin.forall_fin_two.2 ⟨fun _ => rfl, fun hb => absurd rfl hb⟩) rfl]
  rw [val_main_call0_v15_apply, val_main_call0_v13_apply, val_main_call0_v10_apply, val_main_call0_v3_apply,
    val_main_call0_v2_apply, val_main_call0_c_apply, val_main_call0_v1_apply, val_main_call0_v9_apply,
    val_main_call0_c_2_apply]
  show Scalar.select (IntOp.cmpi .slt (IntOp.addi 4096#32 (BitVec.ofNat 32 k.val)) 0#32) _
    (IntOp.addi 4096#32 (BitVec.ofNat 32 k.val)) = _
  rw [addi_4096_ofNat, slt_zero_ofNat _ (by have := k.isLt; omega), select_zero]

/-- The second gather's index array: row `k` holds (4096 + k, k). -/
theorem idxB_row (k : Fin 4096) :
    val_main_call1_v16 (F := Ideal) (ix2 k (0 : Fin 2)) = BitVec.ofNat 32 (4096 + k.val) := by
  unfold val_main_call1_v16
  rw [concatenate_pair_apply_left (1 : Fin S4096x2.rank) _ _ concatenates_S4096x1_S4096x1_S4096x2_d1
    (ix2 k (0 : Fin 2)) rfl (ix2 k (0 : Fin 1)) (Fin.forall_fin_two.2 ⟨rfl, rfl⟩)]
  rw [val_main_call1_v14_apply, val_main_call1_v8_apply, val_main_call1_v5_apply, val_main_call1_v3_apply,
    val_main_call1_v2_apply, val_main_call1_c_apply, val_main_call1_v1_apply, val_main_call1_v4_apply,
    val_main_call1_c_0_apply]
  show Scalar.select (IntOp.cmpi .slt (IntOp.addi 4096#32 (BitVec.ofNat 32 k.val)) 0#32) _
    (IntOp.addi 4096#32 (BitVec.ofNat 32 k.val)) = _
  rw [addi_4096_ofNat, slt_zero_ofNat _ (by have := k.isLt; omega), select_zero]

theorem idxB_col (k : Fin 4096) : val_main_call1_v16 (F := Ideal) (ix2 k (1 : Fin 2)) = BitVec.ofNat 32 k.val := by
  unfold val_main_call1_v16
  rw [concatenate_pair_apply_right (1 : Fin S4096x2.rank) _ _ concatenates_S4096x1_S4096x1_S4096x2_d1
    (ix2 k (1 : Fin 2)) rfl rfl (ix2 k (0 : Fin 1)) (Fin.forall_fin_two.2 ⟨fun _ => rfl, fun hb => absurd rfl hb⟩) rfl]
  rw [val_main_call1_v15_apply, val_main_call1_v13_apply, val_main_call1_v10_apply, val_main_call1_v0_apply,
    val_main_call1_v9_apply, val_main_call1_c_2_apply]
  show Scalar.select (IntOp.cmpi .slt (BitVec.ofNat 32 k.val) 0#32) _ (BitVec.ofNat 32 k.val) = _
  rw [slt_zero_ofNat _ (by have := k.isLt; omega), select_zero]

/-- The first gather: entry `k` is the similarity of row `k` with the row 4096 further down. -/
theorem diagA (x0 x1 : Arg) (k : Fin 4096) (c : Fin 8192) (hc : c.val = 4096 + k.val) :
    val_main_v19 (F := Ideal) x0 x1 (ix1 k)
      = Cert.Spec.sim (nrm (toMat x0)) (nrm (toMat x1)) ⟨k.val, by have := k.isLt; omega⟩ c := by
  unfold val_main_v19
  rw [gather2_apply]
  refine (congrArg (val_main_v18 (F := Ideal) x0 x1)
    (?_ : _ = ix2 (⟨k.val, by have := k.isLt; omega⟩ : Fin 8192) c)).trans (sim_eq x0 x1 _ _)
  have e0 : min (val_main_call0_v16 (F := Ideal) (ix2 k (0 : Fin 2))).toInt.toNat 8191 = k.val := by
    rw [idxA_row, clamp_ofNat _ (by have := k.isLt; omega)]
  have e1 : min (val_main_call0_v16 (F := Ideal) (ix2 k (1 : Fin 2))).toInt.toNat 8191 = c.val := by
    rw [idxA_col, clamp_ofNat _ (by have := k.isLt; omega), hc]
  exact funext (Fin.forall_fin_two.2 ⟨Fin.ext e0, Fin.ext e1⟩)

/-- The second gather: entry `k` is the similarity of the row 4096 further down with row `k`. -/
theorem diagB (x0 x1 : Arg) (k : Fin 4096) (r : Fin 8192) (hr : r.val = 4096 + k.val) :
    val_main_v20 (F := Ideal) x0 x1 (ix1 k)
      = Cert.Spec.sim (nrm (toMat x0)) (nrm (toMat x1)) r ⟨k.val, by have := k.isLt; omega⟩ := by
  unfold val_main_v20
  rw [gather2_apply]
  refine (congrArg (val_main_v18 (F := Ideal) x0 x1)
    (?_ : _ = ix2 r (⟨k.val, by have := k.isLt; omega⟩ : Fin 8192))).trans (sim_eq x0 x1 _ _)
  have e0 : min (val_main_call1_v16 (F := Ideal) (ix2 k (0 : Fin 2))).toInt.toNat 8191 = r.val := by
    rw [idxB_row, clamp_ofNat _ (by have := k.isLt; omega), hr]
  have e1 : min (val_main_call1_v16 (F := Ideal) (ix2 k (1 : Fin 2))).toInt.toNat 8191 = k.val := by
    rw [idxB_col, clamp_ofNat _ (by have := k.isLt; omega)]
  exact funext (Fin.forall_fin_two.2 ⟨Fin.ext e0, Fin.ext e1⟩)

/-- The two gathers joined: entry `r` is the similarity of stacked row `r` with its partner, the same row of the
    other view. -/
theorem pos_eq (x0 x1 : Arg) (r : Fin 8192) :
    val_main_v21 (F := Ideal) x0 x1 (ix1 r)
      = Cert.Spec.sim (nrm (toMat x0)) (nrm (toMat x1)) r (Cert.Spec.partner r) := by
  unfold val_main_v21 Cert.Spec.partner
  by_cases h : r.val < 4096
  · rw [dif_pos h, concatenate_pair_apply_left (0 : Fin S8192.rank) _ _ concatenates_S4096_S4096_S8192_d0
      (ix1 r) rfl (ix1 (⟨r.val, h⟩ : Fin 4096)) (fun b => by rw [Subsingleton.elim b 0]; rfl)]
    exact diagA x0 x1 ⟨r.val, h⟩ _ (Nat.add_comm _ _)
  · have h2 : r.val - 4096 < 4096 := by have := r.isLt; omega
    rw [dif_neg h, concatenate_pair_apply_right (0 : Fin S8192.rank) _ _ concatenates_S4096_S4096_S8192_d0
      (ix1 r) rfl rfl (ix1 (⟨r.val - 4096, h2⟩ : Fin 4096)) (fun b hb => absurd (Subsingleton.elim _ _) hb)
      (by show r.val - 4096 + 4096 = r.val; omega)]
    exact diagB x0 x1 ⟨r.val - 4096, h2⟩ r (by show r.val = 4096 + (r.val - 4096); omega)

/-! ## The mask -/

/-- The view indicator: the iota compared with 4096, as a float, is 0 on the first view's rows and 1 on the second's. -/
theorem view_eq (r : Fin 8192) : val_main_v28 (F := Ideal) (ix1 r) = Cert.Spec.view r := by
  rw [val_main_v28_apply, val_main_v27_apply, val_main_v25_apply, val_main_v26_apply, val_main_c_apply]
  show (((IntOp.cmpi .sge (BitVec.ofNat 32 r.val) 4096#32).toNat : ℝ) : EReal) = _
  rw [sge_4096_ofNat _ (by have := r.isLt; omega)]
  unfold Cert.Spec.view
  split
  · show (((1 : ℕ) : ℝ) : EReal) = 1
    simp
  · show (((0 : ℕ) : ℝ) : EReal) = 0
    simp

/-- The mask at (r, c): the row's and the column's indicators compared for inequality, as a float. -/
theorem mask_eq (r c : Fin 8192) : val_main_v34 (F := Ideal) (ix2 r c) = Cert.Spec.mask r c := by
  rw [val_main_v34_apply, val_main_v33_apply, val_main_v31_apply, val_main_v29_apply, val_main_v32_apply,
    val_main_v30_apply]
  have e1 : idx_main_v29 (idx_main_v31 (ix2 r c)) = ix1 r := funext fun a => Fin.ext (by have ha : a = 0 := Subsingleton.elim a 0; subst ha; rfl)
  have e2 : idx_main_v30 (idx_main_v32 (ix2 r c)) = ix1 c := funext fun a => Fin.ext (by have ha : a = 0 := Subsingleton.elim a 0; subst ha; rfl)
  rw [e1, e2, view_eq, view_eq]
  unfold Cert.Spec.mask
  show (((Ideal.cmp .une (Cert.Spec.view r) (Cert.Spec.view c)).toNat : ℝ) : EReal) = _
  by_cases h : Cert.Spec.view r = Cert.Spec.view c
  · have hb : Ideal.cmp .une (Cert.Spec.view r) (Cert.Spec.view c) = 0#1 := by simp [Ideal.cmp, h]
    rw [hb, if_neg (not_not.mpr h)]
    show (((0 : ℕ) : ℝ) : EReal) = 0
    simp
  · have hb : Ideal.cmp .une (Cert.Spec.view r) (Cert.Spec.view c) = 1#1 := by simp [Ideal.cmp, h]
    rw [hb, if_pos h]
    show (((1 : ℕ) : ℝ) : EReal) = 1
    simp

/-! ## Denominators, losses, the mean -/

/-- Row `r`'s denominator: the masked exponentials of the row of similarities over the temperature, summed. -/
theorem denom_eq (x0 x1 : Arg) (r : Fin 8192) :
    val_main_v39 (F := Ideal) x0 x1 (ix1 r) = Cert.Spec.denomR (nrm (toMat x0)) (nrm (toMat x1)) r := by
  rw [val_main_v39_apply, val_main_cst_5_apply]
  simp only [Ideal.ofBits_def, Ideal.ofBits_zero_f32, zero_add]
  unfold Cert.Spec.denomR
  refine Finset.sum_congr rfl fun c _ => ?_
  have e : idx_main_v39 (ix1 r) c = ix2 r c :=
    funext fun a => Fin.ext (by match a with | ⟨0, _⟩ => rfl | ⟨1, _⟩ => rfl)
  rw [e, val_main_v38_apply, mask_eq, val_main_v37_apply, val_main_v36_apply, sim_eq, val_main_v35_apply,
    val_main_cst_4_apply]
  rfl

/-- Row `r`'s loss: minus the logarithm of its numerator over its denominator. -/
theorem loss_eq (x0 x1 : Arg) (r : Fin 8192) :
    val_main_v42 (F := Ideal) x0 x1 (ix1 r)
      = Cert.Spec.lossOf (Ideal.exp (Ideal.div (Cert.Spec.sim (nrm (toMat x0)) (nrm (toMat x1)) r (Cert.Spec.partner r))
          Cert.Spec.half)) (Cert.Spec.denomR (nrm (toMat x0)) (nrm (toMat x1)) r) := by
  rw [val_main_v42_apply, val_main_v41_apply, val_main_v40_apply, val_main_v24_apply, val_main_v23_apply, pos_eq,
    val_main_v22_apply, val_main_cst_3_apply, denom_eq]
  rfl

/-- A rank-1 index set is its coordinate's range. -/
def idxEquiv1 {n : Nat} : (⟨1, ![n]⟩ : Shape).Idx ≃ Fin n where
  toFun i := i 0
  invFun := ix1
  left_inv i := (eq_ix1 i).symm
  right_inv _ := rfl

/-- THE RESULT: the reference's scalar, as a function of its two argument arrays, is the mean loss of the
    mathematics. -/
theorem result_eq (x0 x1 : Arg) :
    val_main_v44 (F := Ideal) x0 x1 = fun _ => Cert.Spec.refResult (toMat x0) (toMat x1) := by
  funext i
  rw [val_main_v44_apply, val_main_v43_apply, val_main_cst_6_apply, val_main_cst_7_apply]
  simp only [Ideal.ofBits_def, Ideal.ofBits_zero_f32, zero_add, Ideal.hostDivf_def]
  unfold Cert.Spec.refResult Cert.Spec.refOf Cert.Spec.cnt
  refine congrArg₂ Ideal.div ?_ rfl
  refine Fintype.sum_equiv idxEquiv1 _ _ fun j => ?_
  exact (congrArg (val_main_v42 (F := Ideal) x0 x1) (eq_ix1 j)).trans (loss_eq x0 x1 (j 0))

/-! ## The run, restated over the mathematics -/

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's run with its result named by the mathematics: every weakly fair execution terminates with the
    result buffer at the mean loss of the two argument arrays read by coordinates, and the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v44)
          = (fun _ => Cert.Spec.refResult
              (toMat (m' ((c.tc : Thread Cert.ReferenceIdeal.nD Cert.ReferenceIdeal.τ).loc Cert.ReferenceIdeal.main_arg0)))
              (toMat (m' ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v44_eq m' c).trans (result_eq _ _)), (h c).2⟩)
    (Cert.ReferenceIdeal.ValueP.run (F := Ideal) m' g')

end Cert.ReferenceIdeal.RefValue

end
-- ==== Proof.lean ====
/-
  The certificate's claim: a SimCLR-style contrastive loss of two 4096 × 256 matrices, computed by three kernel
  regions and a host tail, against the reference that stacks the normalized matrices and masks one 8192 × 8192
  similarity matrix.

  Both programs normalize each row by its clamped Euclidean norm.  The kernel then forms, tile by tile, the sums over
  the other view's rows of exp (2 · inner product) — once with the views in one order, once in the other —, the
  inner products of matching rows, and the mean of the 8192 losses -log (exp (p / (1/2)) / denominator).  The
  reference forms the same numbers from the stacked matrix: the mask keeps exactly the other view's columns
  (0 · x = 0 and 1 · x = x on the extended reals), its two off-diagonals are the matching rows' inner products, and
  x / (1/2) = x · 2.  So the two results are one function of the arguments (`Cert.Spec.bridge`), for all
  extended-real inputs: the precondition is never opened.

  The frames: the kernel's program runs as a list of segments (three regions, two host stretches), each region's body
  proved at a generic grid point with the scratch accumulator's contents carried in the region's invariant; the same
  text serves the word-level program and the idealized one.  The reference's frame is its run with the result dropped.
  The idealization rewrote no operation, so there is nothing to preserve.
-/
import proofs.«159817_j84318797955094_1_alg».proof.Defs
import proofs.«159817_j84318797955094_1_alg».proof.Proof.Gen.Kernel
import proofs.«159817_j84318797955094_1_alg».proof.Proof.Gen.KernelIdeal
import proofs.«159817_j84318797955094_1_alg».proof.Proof.Gen.ReferenceIdeal
import proofs.«159817_j84318797955094_1_alg».proof.Proof.Gen.Pre_finite_inputs
import proofs.«159817_j84318797955094_1_alg».proof.Proof.KRun
import proofs.«159817_j84318797955094_1_alg».proof.Proof.Run
import proofs.«159817_j84318797955094_1_alg».proof.Proof.KernelValue
import proofs.«159817_j84318797955094_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its two arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- At the ideal instance the kernel's program ends with its result at the kernel's form of the loss of its arguments
    and the reference with its result at the reference's form of the loss of ITS arguments; the arguments agree and the
    two forms are one function. -/
theorem algebraic : Cert.algebraic_KernelIdeal_ReferenceIdeal := by
  intro m ρ m' ρ' _ hagree
  refine ⟨fun c => fun _ => Cert.Spec.kernelResult
      (Cert.Spec.toMat (m ((c.tc : Thread Cert.KernelIdeal.nD Cert.KernelIdeal.τ).loc Cert.KernelIdeal.main_arg0)))
      (Cert.Spec.toMat (m ((c.tc : Thread Cert.KernelIdeal.nD Cert.KernelIdeal.τ).loc Cert.KernelIdeal.main_arg1))), ?_, ?_⟩
  · refine (θ_run Cert.KernelIdeal.defs _ _).mono (fun _ h c => ⟨?_, ?_, ?_⟩) (Cert.KernelIdeal.Hand.run_main (F := Ideal) m ρ)
    · exact (h c _ (Cert.KernelIdeal.Hand.mem_uc Cert.KernelIdeal.main_v19 (by decide))).trans (Cert.KernelIdeal.Hand.result_eq m c)
    · exact (h c _ (Cert.KernelIdeal.Hand.mem_uc Cert.KernelIdeal.main_arg0 (by decide))).trans (Cert.KernelIdeal.Hand.W5_main_arg0 m c)
    · exact (h c _ (Cert.KernelIdeal.Hand.mem_uc Cert.KernelIdeal.main_arg1 (by decide))).trans (Cert.KernelIdeal.Hand.W5_main_arg1 m c)
  · refine (θ_run Cert.ReferenceIdeal.defs _ _).mono (fun _ h c => ⟨(h c).1.trans ?_, (h c).2⟩)
      (Cert.ReferenceIdeal.RefValue.ref_run m' ρ')
    rw [(hagree c).1, (hagree c).2]
    exact funext fun _ => (Cert.Spec.bridge _ _).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
